-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x8192 : Shape := ⟨2, ![8192, 8192]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S8192x1024 .f32) (main_arg1 : FVec F S8192x8192 .f32) (main_arg2 : FVec F S8192x8192 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  main_v13
-- ==== Kernel.lean ====
abbrev S8192x1024 : Shape := ⟨2, ![8192, 1024]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1024x1024 : Shape := ⟨2, ![1024, 1024]⟩

abbrev nBuf : Space → Nat
  | .hbm => 39
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x8192, .f32⟩
  | .hbm, ⟨2, _⟩ => ⟨S8192x8192, .f32⟩
  | .hbm, ⟨3, _⟩ => ⟨S8192x8192, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S8192x8192, .i32⟩
  | .hbm, ⟨9, _⟩ => ⟨S8192x8192, .i32⟩
  | .hbm, ⟨10, _⟩ => ⟨S_, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192, .i1⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S_, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S8192x1, .f32⟩
  | .hbm, ⟨29, _⟩ => ⟨S8192x8192, .f32⟩
  | .hbm, ⟨30, _⟩ => ⟨S8192x8192, .f32⟩
  | .hbm, ⟨31, _⟩ => ⟨S1x8192, .f32⟩
  | .hbm, ⟨32, _⟩ => ⟨S8192x8192, .f32⟩
  | .hbm, ⟨33, _⟩ => ⟨S8192x8192, .f32⟩
  | .hbm, ⟨34, _⟩ => ⟨S8192x8192, .bf16⟩
  | .hbm, ⟨35, _⟩ => ⟨S8192x8192, .bf16⟩
  | .hbm, ⟨36, _⟩ => ⟨S8192x1024, .bf16⟩
  | .hbm, ⟨37, _⟩ => ⟨S8192x8192, .bf16⟩
  | .hbm, ⟨38, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨3, ![8, 8, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 1, 8], ![false, false, false]⟩

def k1_cond2 (i : grid1.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  transposes_S8192x8192_S8192x8192_1_0 : S8192x8192.Transposes [1, 0] S8192x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .bf16 = 32 ∨ (Rect.block (s := S8192x8192) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x8192.size a
  hwx0_1 : ∀ i : grid0.Coords, EltTy.bits .bf16 = 32 ∨ (Rect.block (s := S8192x8192) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .bf16 = 32 ∨ (Rect.block (s := S8192x8192) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .bf16 = 32 ∨ (Rect.block (s := S8192x8192) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x1024.size a
  hwx1_1 : ∀ i : grid1.Coords, EltTy.bits .bf16 = 32 ∨ (Rect.block (s := S8192x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x1024.size a
  hwx1_2 : ∀ i : grid1.Coords, EltTy.bits .f32 = 32 ∨ (Rect.block (s := S8192x1024) S1024x1024.size (cc1_transform_2 i) (hinb1_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v24) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v26) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x1024 : Shape := ⟨2, ![8192, 1024]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x8192, .f32⟩
  | .hbm, ⟨2, _⟩ => ⟨S8192x8192, .f32⟩
  | .hbm, ⟨3, _⟩ => ⟨S8192x8192, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S8192x8192, .i32⟩
  | .hbm, ⟨9, _⟩ => ⟨S8192x8192, .i32⟩
  | .hbm, ⟨10, _⟩ => ⟨S_, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192, .i1⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S_, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S8192x1, .f32⟩
  | .hbm, ⟨29, _⟩ => ⟨S8192x8192, .f32⟩
  | .hbm, ⟨30, _⟩ => ⟨S8192x8192, .f32⟩
  | .hbm, ⟨31, _⟩ => ⟨S1x8192, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  transposes_S8192x8192_S8192x8192_1_0 : S8192x8192.Transposes [1, 0] S8192x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  dot_S8192x8192_S8192x8192_S8192x8192_1_0_0_1_n_n_wf : DotDims.WF S8192x8192 S8192x8192 S8192x8192 [1] [0] [0] [1] [] []
  dot_S8192x8192_S8192x1024_S8192x1024_1_0_0_1_n_n_wf : DotDims.WF S8192x8192 S8192x1024 S8192x1024 [1] [0] [0] [1] [] []

variable [Facts₀]

def dot_S8192x8192_S8192x8192_S8192x8192_1_0_0_1_n_n : DotDims S8192x8192 S8192x8192 S8192x8192 where
  lhsContracting := [1]
  rhsContracting := [0]
  lhsNonContracting := [0]
  rhsNonContracting := [1]
  lhsBatch := []
  rhsBatch := []
  wf := dot_S8192x8192_S8192x8192_S8192x8192_1_0_0_1_n_n_wf
def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf

class Facts : Prop extends Facts₀ where

variable [Facts]
-- ==== Proof.KB.RegionData.lean ====
/-
  The two matrix products of the program, each a pipelined region that walks a grid (i, j, k) with k innermost
  and keeps a running sum in a scratch buffer: what each window's block is at a point, what the scratch holds
  after each point (the sum is restarted where k = 0 and grows by one block product per point), what the region
  invariant says between points, and the proof data of each region over the contents `V` the region is entered at.
-/
import proofs.«131328_j7430293422438_1_alg».proof.Proof.Gen.Kernel.Launch
import proofs.«131328_j7430293422438_1_alg».proof.Proof.Gen.Kernel.Skeleton
import proofs.«131328_j7430293422438_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The first product: left factor window 0, right factor window 1, product window 2, grid 8 × 8 × 8 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left and right factor blocks at a point, at their literal types. -/
abbrev lhs0 (c : Dev nD) (t : Fin cfg0.N) : Vec F S1024x1024 .bf16 := iblk0 V c 0 t
abbrev rhs0 (c : Dev nD) (t : Fin cfg0.N) : Vec F S1024x1024 .bf16 := iblk0 V c 1 t

/-- THE RUNNING SUM. What the scratch holds after the body at position `n`: one more block product added to what
    the point before left — to zero where the innermost coordinate is 0 (every eighth point), the sum restarting. -/
def acc0 (c : Dev nD) : (n : ℕ) → n < cfg0.N → Vec F S1024x1024 .f32
  | 0, h => k0_pay2 k0_pay1 (lhs0 V c ⟨0, h⟩) (rhs0 V c ⟨0, h⟩)
  | n + 1, h =>
    if (n + 1) % 8 = 0 then k0_pay2 k0_pay1 (lhs0 V c ⟨n + 1, h⟩) (rhs0 V c ⟨n + 1, h⟩)
    else k0_pay2 (acc0 c n (Nat.lt_of_succ_lt h)) (lhs0 V c ⟨n + 1, h⟩) (rhs0 V c ⟨n + 1, h⟩)

/-- The scratch operand as a whole memref. -/
abbrev scM0 : Memref sig .tc .vmem S1024x1024 .f32 := Memref.whole cc0_scratch0

/-- The core's scoped buffers that region 0 never touches (the second product's staging buffers and scratch), each
    whole at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant with the scratch split off as an owned memref. -/
theorem PhiA0_eq (c : Dev nD) :
    (Pipeline.ΦA spec0 c : sProp 𝕄)
      = iprop(((∃ d, owns (c : Thread nD τ) scM0 fullShare d) ∗ others0 c) ∗ (∃ r, prngReg c r)) := by
  unfold Pipeline.ΦA others0; rw [scopedRest0_eq]; simp only [scM0, owns_whole]; try rfl

/-- The region invariant before position `n`: before the first point every scoped buffer at anything; afterwards the
    scratch at the running sum the point before left. -/
def PhiS0 (c : Dev nD) : (n : ℕ) → n ≤ cfg0.N → sProp 𝕄
  | 0, _ => Pipeline.ΦA spec0 c
  | n + 1, hn => iprop((owns (c : Thread nD τ) scM0 fullShare (acc0 V c n hn) ∗ others0 c) ∗ (∃ r, prngReg c r))

/-- The proof data of the first product on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val t.isLt)
  Φ t := PhiS0 V c t.val (Nat.le_of_lt_succ t.isLt)
  q _ := fullShare
  owed _ := 0

/-! ## The second product: the same kernel on grid 8 × 1 × 8, its result kept in f32 -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev lhs1 (c : Dev nD) (t : Fin cfg1.N) : Vec F S1024x1024 .bf16 := iblk1 V c 0 t
abbrev rhs1 (c : Dev nD) (t : Fin cfg1.N) : Vec F S1024x1024 .bf16 := iblk1 V c 1 t

def acc1 (c : Dev nD) : (n : ℕ) → n < cfg1.N → Vec F S1024x1024 .f32
  | 0, h => k1_pay2 k1_pay1 (lhs1 V c ⟨0, h⟩) (rhs1 V c ⟨0, h⟩)
  | n + 1, h =>
    if (n + 1) % 8 = 0 then k1_pay2 k1_pay1 (lhs1 V c ⟨n + 1, h⟩) (rhs1 V c ⟨n + 1, h⟩)
    else k1_pay2 (acc1 c n (Nat.lt_of_succ_lt h)) (lhs1 V c ⟨n + 1, h⟩) (rhs1 V c ⟨n + 1, h⟩)

abbrev scM1 : Memref sig .tc .vmem S1024x1024 .f32 := Memref.whole cc1_scratch0

/-- The core's scoped buffers that region 1 never stages (the first product's staging buffers and scratch), each whole
    at some contents, followed by what is said of region 1's own scratch (`X`): the order the launch lists them in. -/
def with1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ X)

theorem PhiA1_eq (c : Dev nD) :
    (Pipeline.ΦA spec1 c : sProp 𝕄)
      = iprop(with1 c (iprop(∃ d, owns (c : Thread nD τ) scM1 fullShare d)) ∗ (∃ r, prngReg c r)) := by
  unfold Pipeline.ΦA with1; rw [scopedRest1_eq]; simp only [scM1, owns_whole]; try rfl

def PhiS1 (c : Dev nD) : (n : ℕ) → n ≤ cfg1.N → sProp 𝕄
  | 0, _ => Pipeline.ΦA spec1 c
  | n + 1, hn => iprop(with1 c (owns (c : Thread nD τ) scM1 fullShare (acc1 V c n hn)) ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

end Regions

/-! ## The body's two branches, decided over the grids -/

/-- "The innermost coordinate is 0": the sum restarts. -/
abbrev first0 (i : grid0.Coords) : Prop := (Scalar.cmpi .ne (Scalar.extui (Scalar.cmpi .eq (BitVec.ofNat 32 (i 2).val) 0#32)) 0#32) = 1#1
theorem first0_iff : ∀ t : Fin cfg0.N, first0 (grid0.coords t) ↔ t.val % 8 = 0 :=
  (by decide +kernel : ∀ t : Fin grid0.N, first0 (grid0.coords t) ↔ t.val % 8 = 0)
/-- "The innermost coordinate is 7": the sum is complete and is stored into the product's block. -/
abbrev last0 (i : grid0.Coords) : Prop := k0_cond2 i = 1#1
theorem last0_iff : ∀ t : Fin cfg0.N, last0 (grid0.coords t) ↔ t.val % 8 = 7 :=
  (by decide +kernel : ∀ t : Fin grid0.N, last0 (grid0.coords t) ↔ t.val % 8 = 7)
abbrev first1 (i : grid1.Coords) : Prop := (Scalar.cmpi .ne (Scalar.extui (Scalar.cmpi .eq (BitVec.ofNat 32 (i 2).val) 0#32)) 0#32) = 1#1
theorem first1_iff : ∀ t : Fin cfg1.N, first1 (grid1.coords t) ↔ t.val % 8 = 0 :=
  (by decide +kernel : ∀ t : Fin grid1.N, first1 (grid1.coords t) ↔ t.val % 8 = 0)
abbrev last1 (i : grid1.Coords) : Prop := k1_cond2 i = 1#1
theorem last1_iff : ∀ t : Fin cfg1.N, last1 (grid1.coords t) ↔ t.val % 8 = 7 :=
  (by decide +kernel : ∀ t : Fin grid1.N, last1 (grid1.coords t) ↔ t.val % 8 = 7)

/-- The factor windows are never idle; the product window is idle, and not written back, exactly where the sum is incomplete. -/
theorem live0_0 : ∀ t : Fin cfg0.N, cfg0.idle 0 (grid0.coords t) = false := by decide +kernel
theorem live0_1 : ∀ t : Fin cfg0.N, cfg0.idle 1 (grid0.coords t) = false := by decide +kernel
theorem idle0_2 : ∀ t : Fin cfg0.N, ¬last0 (grid0.coords t) → cfg0.idle 2 (grid0.coords t) = true := by decide +kernel
theorem noFlush0_2 : ∀ t : Fin cfg0.N, ¬last0 (grid0.coords t) → (cfg0.win 2).flush t = false := by decide +kernel
theorem live0_2 : ∀ t : Fin cfg0.N, last0 (grid0.coords t) → cfg0.idle 2 (grid0.coords t) = false := by decide +kernel
theorem live1_0 : ∀ t : Fin cfg1.N, cfg1.idle 0 (grid1.coords t) = false := by decide +kernel
theorem live1_1 : ∀ t : Fin cfg1.N, cfg1.idle 1 (grid1.coords t) = false := by decide +kernel
theorem idle1_2 : ∀ t : Fin cfg1.N, ¬last1 (grid1.coords t) → cfg1.idle 2 (grid1.coords t) = true := by decide +kernel
theorem noFlush1_2 : ∀ t : Fin cfg1.N, ¬last1 (grid1.coords t) → (cfg1.win 2).flush t = false := by decide +kernel
theorem live1_2 : ∀ t : Fin cfg1.N, last1 (grid1.coords t) → cfg1.idle 2 (grid1.coords t) = false := by decide +kernel

/-! ## The buffers' contents at the regions' boundaries -/

section Boundaries
variable (m : (ℓ : Loc nD τ sig) → Buf (Elt F) ℓ)

/-- Core `c`'s buffers at launch, -/
abbrev B0 (c : Dev nD) : Valuation τ sig (Elt F) := fun b => m (c, b)
/-- after the host operations before the first product (its entry), -/
abbrev B3 (c : Dev nD) : Valuation τ sig (Elt F) := StableHlo.after hostOps0_2 (StableHlo.after hostOps0_1 (StableHlo.after hostOps0 (B0 m c)))
abbrev V3 (c : Dev nD) (b : Ref sig .tc) : Buf (Elt F) ((c : Thread nD τ).loc b) := B3 m c b
/-- at the first product's exit (the second's entry): its arrays at what its write-backs leave, -/
def B4 (c : Dev nD) : Valuation τ sig (Elt F) :=
  Pipeline.withArrays spec0 c (B3 m c) fun w => (dat0 (V3 m) c).arrAt w cfg0.N
abbrev V4 (c : Dev nD) (b : Ref sig .tc) : Buf (Elt F) ((c : Thread nD τ).loc b) := B4 m c b
/-- and at the second product's exit. -/
def B5 (c : Dev nD) : Valuation τ sig (Elt F) :=
  Pipeline.withArrays spec1 c (B4 m c) fun w => (dat1 (V4 m) c).arrAt w cfg1.N

end Boundaries

end Cert.Kernel.Hand

end
-- ==== Proof.KB.Body0.lean ====
/-
  The first product's kernel body run symbolically, once per way its two branches fall on the grid:
  (A) innermost coordinate 0 — the scratch is zeroed, then one block product is added;
  (B) innermost coordinate 1..6 — one block product is added to what the scratch held;
  (C) innermost coordinate 7 — the same, and the finished sum, narrowed to bf16, is stored into the product's block.
-/
import proofs.«131328_j7430293422438_1_alg».proof.Proof.KB.RegionData
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Loads and stores through the whole-shape rectangle -/

/-- The offset vector `![0, 0]` is the constant zero. -/
private theorem hz2 : (![0, 0] : Fin S1024x1024.rank → ℕ) = fun _ => 0 := by
  funext a; fin_cases a <;> rfl

/-- The whole-shape rectangle holds every index, so a list of writes headed by a write through it covers the shape. -/
private theorem cover_whole {e : EltTy} (w : S1024x1024.Idx → Elt F e) (L : List (View.Piece (Elt F) S1024x1024 e)) (y : S1024x1024.Idx) :
    ∃ p ∈ (⟨Rect.unit (s := S1024x1024) ![0, 0] S1024x1024.size inb_S1024x1024_S1024x1024_0_0, w⟩ : View.Piece (Elt F) S1024x1024 e) :: L, y ∈ p.1.set :=
  ⟨⟨Rect.unit (s := S1024x1024) ![0, 0] S1024x1024.size inb_S1024x1024_S1024x1024_0_0, w⟩, List.mem_cons_self,
    View.mem_set_unit_zero (S := S1024x1024) hz2 inb_S1024x1024_S1024x1024_0_0 y⟩

/-- The last store, when it goes through the whole-shape rectangle, leaves its payload: whatever the buffer held,
    whatever was stored before, however the buffer is viewed. -/
private theorem read_writes_whole {e : EltTy} (v : View sig .tc .vmem S1024x1024 e) (f : v.ty.Contents (Elt F))
    (w : S1024x1024.Idx → Elt F e) (L : List (View.Piece (Elt F) S1024x1024 e)) :
    v.read (Elt F) (v.writes (Elt F) f
      ((⟨Rect.unit (s := S1024x1024) ![0, 0] S1024x1024.size inb_S1024x1024_S1024x1024_0_0, w⟩ : View.Piece (Elt F) S1024x1024 e) :: L)) = w := by
  rw [View.read_writes_eq_canon _ _ _ (cover_whole w L)]
  exact View.canon_cons_unit_zero (S := S1024x1024) hz2 inb_S1024x1024_S1024x1024_0_0 w L

/-- A load through the whole-shape rectangle reads the contents. -/
private theorem readAt_whole {e : EltTy} (v : View sig .tc .vmem S1024x1024 e) (f : v.ty.Contents (Elt F)) :
    v.readAt (Elt F) (Rect.unit (s := S1024x1024) ![0, 0] S1024x1024.size inb_S1024x1024_S1024x1024_0_0).toLoadRect f = v.read (Elt F) f := by
  rw [View.readAt_eq_ld]; exact View.ld_unit_zero (S := S1024x1024) hz2 inb_S1024x1024_S1024x1024_0_0 _

/-- A load through the whole-shape rectangle, after one store through it, reads that store's payload. -/
private theorem readCov_whole {e : EltTy} (v : View sig .tc .vmem S1024x1024 e) (w : S1024x1024.Idx → Elt F e) :
    v.readCov [(⟨Rect.unit (s := S1024x1024) ![0, 0] S1024x1024.size inb_S1024x1024_S1024x1024_0_0, w⟩ : View.Piece (Elt F) S1024x1024 e)]
      (Rect.unit (s := S1024x1024) ![0, 0] S1024x1024.size inb_S1024x1024_S1024x1024_0_0).toLoadRect = w :=
  View.readCov_unit_zero (S := S1024x1024) v hz2 inb_S1024x1024_S1024x1024_0_0 w

/-! ## The three runs -/

/-- Case A: the sum restarts. The factor blocks and the (idle) product buffer come back as they were; the scratch, at
    anything before, ends at zero plus the block product. -/
theorem run0_A (c : Dev nD) (E : Set ℕ) (i : grid0.Coords)
    (arg3 : Memref sig .tc .vmem S1024x1024 .bf16) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1024x1024 .f32) (harg6 : arg6.IsWhole)
    (h1 : first0 i) (h2 : ¬last0 i)
    (x0 x1 xo : Vec F S1024x1024 .bf16) (K : PUnit → sProp 𝕄) :
    iprop(owns (c : Thread nD τ) arg3 fullShare x0 ∗ owns (c : Thread nD τ) arg4 fullShare x1 ∗ owns (c : Thread nD τ) arg5 fullShare xo
        ∗ (∃ d, owns (c : Thread nD τ) arg6 fullShare d)
        ∗ (iprop(owns (c : Thread nD τ) arg3 fullShare x0 ∗ owns (c : Thread nD τ) arg4 fullShare x1 ∗ owns (c : Thread nD τ) arg5 fullShare xo
            ∗ owns (c : Thread nD τ) arg6 fullShare (k0_pay2 k0_pay1 x0 x1)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%fo, %hfo, HO⟩, ⟨%ds, %fs, -, HS⟩, Hk⟩
  -- a whole buffer's contents are determined by the vector they read back to
  obtain rfl := harg3.eq_unread hf0; obtain rfl := harg4.eq_unread hf1; obtain rfl := harg5.eq_unread hfo
  -- the body's loads and stores in order, each branch decided by the case's hypotheses
  sl_exec (disch := first | exact h1 | exact h2)
  sl_step
  iapply Hk
  -- the factor blocks were only loaded: they go back as they came
  isplitl [H0]
  · iexists _; isplitr; · ipureintro; exact hf0
    iexact H0
  isplitl [H1]
  · iexists _; isplitr; · ipureintro; exact hf1
    iexact H1
  -- so does the product buffer, which this case does not touch
  isplitl [HO]
  · iexists _; isplitr; · ipureintro; exact hfo
    iexact HO
  -- the scratch was stored twice, zero and then the sum; the later store covers it, and the sum's load of the
  -- scratch read the zero back
  iexists _; isplitr
  swap; · iexact HS
  ipureintro
  sl_unfold_run_names
  rw [read_writes_whole, readCov_whole, readAt_whole, readAt_whole, hf0, hf1]

/-- Case B: one more block product onto the running sum `s`. -/
theorem run0_B (c : Dev nD) (E : Set ℕ) (i : grid0.Coords)
    (arg3 : Memref sig .tc .vmem S1024x1024 .bf16) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1024x1024 .f32) (harg6 : arg6.IsWhole)
    (h1 : ¬first0 i) (h2 : ¬last0 i)
    (x0 x1 xo : Vec F S1024x1024 .bf16) (s : Vec F S1024x1024 .f32) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare s
        ∗ (iprop(owns (c : Thread nD τ) arg3 fullShare x0 ∗ owns (c : Thread nD τ) arg4 fullShare x1 ∗ owns (c : Thread nD τ) arg5 fullShare xo
            ∗ owns (c : Thread nD τ) arg6 fullShare (k0_pay2 s x0 x1)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%fo, %hfo, HO⟩, ⟨%fs, %hfs, HS⟩, Hk⟩
  -- a whole buffer's contents are determined by the vector they read back to
  obtain rfl := harg3.eq_unread hf0; obtain rfl := harg4.eq_unread hf1; obtain rfl := harg5.eq_unread hfo; obtain rfl := harg6.eq_unread hfs
  -- the body's loads and stores in order, each branch decided by the case's hypotheses
  sl_exec (disch := first | exact h1 | exact h2)
  sl_step
  iapply Hk
  -- the factor blocks were only loaded: they go back as they came
  isplitl [H0]
  · iexists _; isplitr; · ipureintro; exact hf0
    iexact H0
  isplitl [H1]
  · iexists _; isplitr; · ipureintro; exact hf1
    iexact H1
  -- so does the product buffer, which this case does not touch
  isplitl [HO]
  · iexists _; isplitr; · ipureintro; exact hfo
    iexact HO
  -- the scratch holds its one store's payload, whose three loads read `s`, `x0`, `x1` whole
  iexists _; isplitr
  swap; · iexact HS
  ipureintro
  rw [read_writes_whole, readAt_whole, readAt_whole, readAt_whole, hfs, hf0, hf1]

/-- Case C: the last block product, and the finished sum stored (narrowed) into the product's buffer, whatever it held. -/
theorem run0_C (c : Dev nD) (E : Set ℕ) (i : grid0.Coords)
    (arg3 : Memref sig .tc .vmem S1024x1024 .bf16) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1024x1024 .f32) (harg6 : arg6.IsWhole)
    (h1 : ¬first0 i) (h2 : last0 i)
    (x0 x1 : Vec F S1024x1024 .bf16) (s : Vec F S1024x1024 .f32) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare s
        ∗ (iprop(owns (c : Thread nD τ) arg3 fullShare x0 ∗ owns (c : Thread nD τ) arg4 fullShare x1
            ∗ owns (c : Thread nD τ) arg5 fullShare (k0_pay3 (k0_pay2 s x0 x1))
            ∗ owns (c : Thread nD τ) arg6 fullShare (k0_pay2 s x0 x1)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%dO, %fo, -, HO⟩, ⟨%fs, %hfs, HS⟩, Hk⟩
  -- a whole buffer's contents are determined by the vector they read back to
  obtain rfl := harg3.eq_unread hf0; obtain rfl := harg4.eq_unread hf1; obtain rfl := harg6.eq_unread hfs
  -- the body's loads and stores in order, each branch decided by the case's hypotheses
  sl_exec (disch := first | exact h1 | exact h2)
  sl_step
  iapply Hk
  -- the factor blocks were only loaded: they go back as they came
  isplitl [H0]
  · iexists _; isplitr; · ipureintro; exact hf0
    iexact H0
  isplitl [H1]
  · iexists _; isplitr; · ipureintro; exact hf1
    iexact H1
  -- the product buffer holds its one store's payload, computed from the scratch loaded back after the sum's store
  isplitl [HO]
  · iexists _; isplitr
    swap; · iexact HO
    ipureintro
    sl_unfold_run_names
    rw [read_writes_whole, readCov_whole, readAt_whole, readAt_whole, readAt_whole, hfs, hf0, hf1]
  -- the scratch holds the sum's payload, whose three loads read `s`, `x0`, `x1` whole
  iexists _; isplitr
  swap; · iexact HS
  ipureintro
  sl_unfold_run_names
  rw [read_writes_whole, readAt_whole, readAt_whole, readAt_whole, hfs, hf0, hf1]

end Cert.Kernel.Hand

end
-- ==== Proof.KB.Oblig0.lean ====
/-
  The first product's region, point by point: what the body finds in each window's current buffer (a factor window its
  block, freshly fetched; the product window whatever it held), which case of the body the point is, and that the body
  carries the region invariant from one point to the next — the scratch at the running sum `acc0`.
-/
import proofs.«131328_j7430293422438_1_alg».proof.Proof.KB.Body0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The proof data's arrays are the region-entry contents. -/
theorem A_eq0 (c : Dev nD) (w : Fin cfg0.W) : (dat0 V c).A w = V c (Pipeline.arrRef spec0 w) := by
  dsimp only [dat0]

/-! ## The running sum, by the point's place in its run of eight -/

/-- Where the innermost coordinate is 0 the sum restarts from zero. -/
theorem acc0_first (c : Dev nD) (t : Fin cfg0.N) (h : t.val % 8 = 0) :
    acc0 V c t.val t.isLt = k0_pay2 k0_pay1 (lhs0 V c t) (rhs0 V c t) := by
  obtain ⟨n, hn⟩ := t
  cases n with
  | zero => rfl
  | succ n => exact (if_pos h).trans rfl

/-- Elsewhere one more block product is added to what the point before left. -/
theorem acc0_next (c : Dev nD) (t : Fin cfg0.N) (h : ¬t.val % 8 = 0) :
    acc0 V c t.val t.isLt
      = k0_pay2 (acc0 V c (t.val - 1) (Nat.lt_of_le_of_lt (Nat.sub_le _ _) t.isLt)) (lhs0 V c t) (rhs0 V c t) := by
  obtain ⟨n, hn⟩ := t
  cases n with
  | zero => exact absurd (Nat.zero_mod _) h
  | succ n => exact (if_neg h).trans rfl

/-! ## The invariant, by position -/

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn
      = iprop((owns (c : Thread nD τ) scM0 fullShare (acc0 V c n hn) ∗ others0 c) ∗ (∃ r, prngReg c r)) := rfl

theorem PhiS0_pos (c : Dev nD) (n : ℕ) (h : n ≤ cfg0.N) (hz : n ≠ 0) :
    PhiS0 V c n h
      = iprop((owns (c : Thread nD τ) scM0 fullShare (acc0 V c (n - 1) (by omega)) ∗ others0 c) ∗ (∃ r, prngReg c r)) := by
  cases n with
  | zero => exact absurd rfl hz
  | succ n => rfl

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-! ## What the body finds and leaves, window by window -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (acc0 V c t.val t.isLt) := by dsimp only [dat0]

/-- A factor window is fetched at every point, so its current buffer holds its block. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## The body obligation, at a generic point -/

/-- Each window's current staging memref at a point, with its wholeness. -/
abbrev m0_0 (t : Fin cfg0.N) : Memref sig .tc .vmem S1024x1024 .bf16 := win0_0.stage (cfg0.slots t 0)
abbrev h0_0 (t : Fin cfg0.N) : (m0_0 t).IsWhole := hstage0_0 ((cfg0.slots t 0).cast nbuf0_0)
abbrev m0_1 (t : Fin cfg0.N) : Memref sig .tc .vmem S1024x1024 .bf16 := win0_1.stage (cfg0.slots t 1)
abbrev h0_1 (t : Fin cfg0.N) : (m0_1 t).IsWhole := hstage0_1 ((cfg0.slots t 1).cast nbuf0_1)
abbrev m0_2 (t : Fin cfg0.N) : Memref sig .tc .vmem S1024x1024 .bf16 := win0_2.stage (cfg0.slots t 2)
abbrev h0_2 (t : Fin cfg0.N) : (m0_2 t).IsWhole := hstage0_2 ((cfg0.slots t 2).cast nbuf0_2)

/-- What the body is handed at a point: the invariant, what the core owes, and the three current buffers, -/
def bodyPre0 (c : Dev nD) (t : Fin cfg0.N) : sProp 𝕄 :=
  iprop((dat0 V c).Φ t.castSucc ∗ (dat0 V c).owesAt () t.castSucc
    ∗ (∃ d, owns (c : Thread nD τ) (m0_0 t) fullShare ((dat0 V c).before 0 t d))
    ∗ (∃ d, owns (c : Thread nD τ) (m0_1 t) fullShare ((dat0 V c).before 1 t d))
    ∗ (∃ d, owns (c : Thread nD τ) (m0_2 t) fullShare ((dat0 V c).before 2 t d)))

/-- and what it hands back. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

/-- A factor window is live everywhere: the body leaves its buffer at the block. -/
theorem leaves0_0 (c : Dev nD) (t : Fin cfg0.N) :
    (dat0 V c).leavesExact 0 t = owns (c : Thread nD τ) (m0_0 t) fullShare (lhs0 V c t) := by
  rw [show (dat0 V c).leavesExact 0 t = owns (c : Thread nD τ) (m0_0 t) fullShare ((dat0 V c).after 0 t) from by
    unfold Dat.leavesExact; rw [live0_0 t], after0_0]
theorem leaves0_1 (c : Dev nD) (t : Fin cfg0.N) :
    (dat0 V c).leavesExact 1 t = owns (c : Thread nD τ) (m0_1 t) fullShare (rhs0 V c t) := by
  rw [show (dat0 V c).leavesExact 1 t = owns (c : Thread nD τ) (m0_1 t) fullShare ((dat0 V c).after 1 t) from by
    unfold Dat.leavesExact; rw [live0_1 t], after0_1]
/-- The product window where the sum is complete: live, left at the narrowed sum. -/
theorem leaves0_2_last (c : Dev nD) (t : Fin cfg0.N) (h : last0 (grid0.coords t)) :
    (dat0 V c).leavesExact 2 t = owns (c : Thread nD τ) (m0_2 t) fullShare (k0_pay3 (acc0 V c t.val t.isLt)) := by
  rw [show (dat0 V c).leavesExact 2 t = owns (c : Thread nD τ) (m0_2 t) fullShare ((dat0 V c).after 2 t) from by
    unfold Dat.leavesExact; rw [live0_2 t h], after0_2]

/-- The body at any point. The factor buffers hold their blocks; the point's place in its run of eight says which
    case runs; the invariant lends the scratch (at anything before the first point, at the running sum afterwards) and
    takes it back one block product further; where the sum is incomplete the product buffer goes back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ, PhiS0_castSucc]
  rw [leaves0_0, leaves0_1]
  by_cases h0 : t.val % 8 = 0
  · have hf : first0 (grid0.coords t) := (first0_iff t).mpr h0
    have hl : ¬last0 (grid0.coords t) := fun h => by have := (last0_iff t).mp h; omega
    rw [Dat.leavesExact_idle (dat0 V c) 2 t (idle0_2 t hl) (noFlush0_2 t hl), acc0_first V c t h0]
    by_cases hz : t.val = 0
    · rw [PhiS0_zero V c _ _ hz, PhiA0_eq]
      iintro ⟨⟨⟨HS, Hr⟩, Hg⟩, Ho, ⟨%d0, H0⟩, ⟨%d1, H1⟩, ⟨%d2, H2⟩⟩
      iapply (run0_A c Set.univ (grid0.coords t) (m0_0 t) (h0_0 t) (m0_1 t) (h0_1 t) (m0_2 t) (h0_2 t) scM0 (Memref.isWhole_whole _)
        hf hl (lhs0 V c t) (rhs0 V c t) ((dat0 V c).before 2 t d2) _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists d2; iexact H2
    · rw [PhiS0_pos V c _ _ hz]
      iintro ⟨⟨⟨HS, Hr⟩, Hg⟩, Ho, ⟨%d0, H0⟩, ⟨%d1, H1⟩, ⟨%d2, H2⟩⟩
      iapply (run0_A c Set.univ (grid0.coords t) (m0_0 t) (h0_0 t) (m0_1 t) (h0_1 t) (m0_2 t) (h0_2 t) scM0 (Memref.isWhole_whole _)
        hf hl (lhs0 V c t) (rhs0 V c t) ((dat0 V c).before 2 t d2) _)
      isplitl [H0]; · iexact H0
      isplitl [H1]; · iexact H1
      isplitl [H2]; · iexact H2
      isplitl [HS]; · iexists _; iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists d2; iexact H2
  · have hf : ¬first0 (grid0.coords t) := fun h => h0 ((first0_iff t).mp h)
    have hz : t.val ≠ 0 := fun e => h0 (by rw [e])
    rw [PhiS0_pos V c _ _ hz, acc0_next V c t h0]
    by_cases h7 : t.val % 8 = 7
    · have hl : last0 (grid0.coords t) := (last0_iff t).mpr h7
      rw [leaves0_2_last V c t hl, acc0_next V c t h0]
      iintro ⟨⟨⟨HS, Hr⟩, Hg⟩, Ho, ⟨%d0, H0⟩, ⟨%d1, H1⟩, ⟨%d2, H2⟩⟩
      iapply (run0_C c Set.univ (grid0.coords t) (m0_0 t) (h0_0 t) (m0_1 t) (h0_1 t) (m0_2 t) (h0_2 t) scM0 (Memref.isWhole_whole _)
        hf hl (lhs0 V c t) (rhs0 V c t) (acc0 V c (t.val - 1) (Nat.lt_of_le_of_lt (Nat.sub_le _ _) t.isLt)) _)
      isplitl [H0]; · iexact H0
      isplitl [H1]; · iexact H1
      isplitl [H2]; · iexists _; iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · have hl : ¬last0 (grid0.coords t) := fun h => h7 ((last0_iff t).mp h)
      rw [Dat.leavesExact_idle (dat0 V c) 2 t (idle0_2 t hl) (noFlush0_2 t hl)]
      iintro ⟨⟨⟨HS, Hr⟩, Hg⟩, Ho, ⟨%d0, H0⟩, ⟨%d1, H1⟩, ⟨%d2, H2⟩⟩
      iapply (run0_B c Set.univ (grid0.coords t) (m0_0 t) (h0_0 t) (m0_1 t) (h0_1 t) (m0_2 t) (h0_2 t) scM0 (Memref.isWhole_whole _)
        hf hl (lhs0 V c t) (rhs0 V c t) ((dat0 V c).before 2 t d2) (acc0 V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists d2; iexact H2

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class invariant back: the running sum's name is forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 512 := N_0; omega), PhiA0_eq]
  iintro ⟨⟨HS, Hr⟩, Hg⟩
  isplitl [HS Hr]
  · isplitl [HS]
    · iexists _; iexact HS
    iexact Hr
  iexact Hg

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.KB.Body1.lean ====
/-
  The second product's kernel body run symbolically, once per way its two branches fall on the grid:
  (A) innermost coordinate 0 — the scratch is zeroed, then one block product is added;
  (B) innermost coordinate 1..6 — one block product is added to what the scratch held;
  (C) innermost coordinate 7 — the same, and the finished sum is stored into the product's block.
-/
import proofs.«131328_j7430293422438_1_alg».proof.Proof.KB.RegionData
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Loads and stores through the rectangle that is the whole block -/

/-- The offset vector `![0, 0]` is the constant zero. -/
private theorem hz2 : (![0, 0] : Fin S1024x1024.rank → ℕ) = fun _ => 0 := by
  funext a; fin_cases a <;> rfl

/-- The whole-shape rectangle holds every index, so a list of writes headed by a write through it covers the shape. -/
private theorem cover_whole {e : EltTy} (w : S1024x1024.Idx → Elt F e) (L : List (View.Piece (Elt F) S1024x1024 e)) (y : S1024x1024.Idx) :
    ∃ p ∈ (⟨Rect.unit (s := S1024x1024) ![0, 0] S1024x1024.size inb_S1024x1024_S1024x1024_0_0, w⟩ : View.Piece (Elt F) S1024x1024 e) :: L, y ∈ p.1.set :=
  ⟨⟨Rect.unit (s := S1024x1024) ![0, 0] S1024x1024.size inb_S1024x1024_S1024x1024_0_0, w⟩, List.mem_cons_self,
    View.mem_set_unit_zero (S := S1024x1024) hz2 inb_S1024x1024_S1024x1024_0_0 y⟩

/-- The last store, when it goes through the whole-shape rectangle, leaves its payload: whatever the buffer held,
    whatever was stored before, however the buffer is viewed. -/
private theorem read_writes_whole {e : EltTy} (v : View sig .tc .vmem S1024x1024 e) (f : v.ty.Contents (Elt F))
    (w : S1024x1024.Idx → Elt F e) (L : List (View.Piece (Elt F) S1024x1024 e)) :
    v.read (Elt F) (v.writes (Elt F) f
      ((⟨Rect.unit (s := S1024x1024) ![0, 0] S1024x1024.size inb_S1024x1024_S1024x1024_0_0, w⟩ : View.Piece (Elt F) S1024x1024 e) :: L)) = w := by
  rw [View.read_writes_eq_canon _ _ _ (cover_whole w L)]
  exact View.canon_cons_unit_zero (S := S1024x1024) hz2 inb_S1024x1024_S1024x1024_0_0 w L

/-- A load through the whole-shape rectangle reads the contents. -/
private theorem readAt_whole {e : EltTy} (v : View sig .tc .vmem S1024x1024 e) (f : v.ty.Contents (Elt F)) :
    v.readAt (Elt F) (Rect.unit (s := S1024x1024) ![0, 0] S1024x1024.size inb_S1024x1024_S1024x1024_0_0).toLoadRect f = v.read (Elt F) f := by
  rw [View.readAt_eq_ld]; exact View.ld_unit_zero (S := S1024x1024) hz2 inb_S1024x1024_S1024x1024_0_0 _

/-- A load through the whole-shape rectangle, after one store through it, reads that store's payload. -/
private theorem readCov_whole {e : EltTy} (v : View sig .tc .vmem S1024x1024 e) (w : S1024x1024.Idx → Elt F e) :
    v.readCov [(⟨Rect.unit (s := S1024x1024) ![0, 0] S1024x1024.size inb_S1024x1024_S1024x1024_0_0, w⟩ : View.Piece (Elt F) S1024x1024 e)]
      (Rect.unit (s := S1024x1024) ![0, 0] S1024x1024.size inb_S1024x1024_S1024x1024_0_0).toLoadRect = w :=
  View.readCov_unit_zero (S := S1024x1024) v hz2 inb_S1024x1024_S1024x1024_0_0 w

/-- Case A: the sum restarts. The factor blocks and the (idle) product buffer come back as they were; the scratch, at
    anything before, ends at zero plus the block product. -/
theorem run1_A (c : Dev nD) (E : Set ℕ) (i : grid1.Coords)
    (arg3 : Memref sig .tc .vmem S1024x1024 .bf16) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S1024x1024 .f32) (harg6 : arg6.IsWhole)
    (h1 : first1 i) (h2 : ¬last1 i)
    (x0 x1 : Vec F S1024x1024 .bf16) (xo : Vec F S1024x1024 .f32) (K : PUnit → sProp 𝕄) :
    iprop(owns (c : Thread nD τ) arg3 fullShare x0 ∗ owns (c : Thread nD τ) arg4 fullShare x1 ∗ owns (c : Thread nD τ) arg5 fullShare xo
        ∗ (∃ d, owns (c : Thread nD τ) arg6 fullShare d)
        ∗ (iprop(owns (c : Thread nD τ) arg3 fullShare x0 ∗ owns (c : Thread nD τ) arg4 fullShare x1 ∗ owns (c : Thread nD τ) arg5 fullShare xo
            ∗ owns (c : Thread nD τ) arg6 fullShare (k1_pay2 k1_pay1 x0 x1)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%fo, %hfo, HO⟩, ⟨%ds, %fs, -, HS⟩, Hk⟩
  -- a whole buffer's contents are determined by the vector they read back to
  obtain rfl := harg3.eq_unread hf0; obtain rfl := harg4.eq_unread hf1; obtain rfl := harg5.eq_unread hfo
  -- the body's loads and stores in order, each branch decided by the case's hypotheses
  sl_exec (disch := first | exact h1 | exact h2)
  sl_step
  iapply Hk
  -- the factor blocks were only loaded: they go back as they came
  isplitl [H0]
  · iexists _; isplitr; · ipureintro; exact hf0
    iexact H0
  isplitl [H1]
  · iexists _; isplitr; · ipureintro; exact hf1
    iexact H1
  -- so does the product's buffer, which this case leaves alone
  isplitl [HO]
  · iexists _; isplitr; · ipureintro; exact hfo
    iexact HO
  -- the scratch was stored twice, zero and then the sum; the later store covers it, and the sum's load of the
  -- scratch read the zero back
  iexists _; isplitr
  swap; · iexact HS
  ipureintro
  sl_unfold_run_names
  rw [read_writes_whole, readCov_whole, readAt_whole, readAt_whole, hf0, hf1]

/-- Case B: one more block product onto the running sum `s`. -/
theorem run1_B (c : Dev nD) (E : Set ℕ) (i : grid1.Coords)
    (arg3 : Memref sig .tc .vmem S1024x1024 .bf16) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S1024x1024 .f32) (harg6 : arg6.IsWhole)
    (h1 : ¬first1 i) (h2 : ¬last1 i)
    (x0 x1 : Vec F S1024x1024 .bf16) (xo : Vec F S1024x1024 .f32) (s : Vec F S1024x1024 .f32) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare s
        ∗ (iprop(owns (c : Thread nD τ) arg3 fullShare x0 ∗ owns (c : Thread nD τ) arg4 fullShare x1 ∗ owns (c : Thread nD τ) arg5 fullShare xo
            ∗ owns (c : Thread nD τ) arg6 fullShare (k1_pay2 s x0 x1)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%fo, %hfo, HO⟩, ⟨%fs, %hfs, HS⟩, Hk⟩
  -- a whole buffer's contents are determined by the vector they read back to
  obtain rfl := harg3.eq_unread hf0; obtain rfl := harg4.eq_unread hf1; obtain rfl := harg5.eq_unread hfo; obtain rfl := harg6.eq_unread hfs
  -- the body's loads and stores in order, each branch decided by the case's hypotheses
  sl_exec (disch := first | exact h1 | exact h2)
  sl_step
  iapply Hk
  -- the factor blocks were only loaded: they go back as they came
  isplitl [H0]
  · iexists _; isplitr; · ipureintro; exact hf0
    iexact H0
  isplitl [H1]
  · iexists _; isplitr; · ipureintro; exact hf1
    iexact H1
  -- so does the product's buffer, which this case leaves alone
  isplitl [HO]
  · iexists _; isplitr; · ipureintro; exact hfo
    iexact HO
  -- the scratch holds its one store's payload, whose three loads read `s`, `x0`, `x1` whole
  iexists _; isplitr
  swap; · iexact HS
  ipureintro
  rw [read_writes_whole, readAt_whole, readAt_whole, readAt_whole, hfs, hf0, hf1]

/-- Case C: the last block product, and the finished sum stored into the product's buffer, whatever it held. -/
theorem run1_C (c : Dev nD) (E : Set ℕ) (i : grid1.Coords)
    (arg3 : Memref sig .tc .vmem S1024x1024 .bf16) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S1024x1024 .f32) (harg6 : arg6.IsWhole)
    (h1 : ¬first1 i) (h2 : last1 i)
    (x0 x1 : Vec F S1024x1024 .bf16) (s : Vec F S1024x1024 .f32) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare s
        ∗ (iprop(owns (c : Thread nD τ) arg3 fullShare x0 ∗ owns (c : Thread nD τ) arg4 fullShare x1
            ∗ owns (c : Thread nD τ) arg5 fullShare (k1_pay2 s x0 x1)
            ∗ owns (c : Thread nD τ) arg6 fullShare (k1_pay2 s x0 x1)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%dO, %fo, -, HO⟩, ⟨%fs, %hfs, HS⟩, Hk⟩
  -- a whole buffer's contents are determined by the vector they read back to
  obtain rfl := harg3.eq_unread hf0; obtain rfl := harg4.eq_unread hf1; obtain rfl := harg6.eq_unread hfs
  -- the body's loads and stores in order, each branch decided by the case's hypotheses
  sl_exec (disch := first | exact h1 | exact h2)
  sl_step
  iapply Hk
  -- the factor blocks were only loaded: they go back as they came
  isplitl [H0]
  · iexists _; isplitr; · ipureintro; exact hf0
    iexact H0
  isplitl [H1]
  · iexists _; isplitr; · ipureintro; exact hf1
    iexact H1
  -- the product's buffer holds its one store's payload: the scratch loaded back after the sum's store, the sum itself
  isplitl [HO]
  · iexists _; isplitr
    swap; · iexact HO
    ipureintro
    sl_unfold_run_names
    rw [read_writes_whole, readCov_whole, readAt_whole, readAt_whole, readAt_whole, hfs, hf0, hf1]
  -- the scratch holds the sum's payload, whose three loads read `s`, `x0`, `x1` whole
  iexists _; isplitr
  swap; · iexact HS
  ipureintro
  sl_unfold_run_names
  rw [read_writes_whole, readAt_whole, readAt_whole, readAt_whole, hfs, hf0, hf1]

end Cert.Kernel.Hand

end
-- ==== Proof.KB.Oblig1.lean ====
/-
  The second product's region, point by point: what the body finds in each window's current buffer (a factor window its
  block, freshly fetched; the product window whatever it held), which case of the body the point is, and that the body
  carries the region invariant from one point to the next — the scratch at the running sum `acc1`.
-/
import proofs.«131328_j7430293422438_1_alg».proof.Proof.KB.Body1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The proof data's arrays are the region-entry contents. -/
theorem A_eq1 (c : Dev nD) (w : Fin cfg1.W) : (dat1 V c).A w = V c (Pipeline.arrRef spec1 w) := by
  dsimp only [dat1]

/-! ## The running sum, by the point's place in its run of eight -/

/-- Where the innermost coordinate is 0 the sum restarts from zero. -/
theorem acc1_first (c : Dev nD) (t : Fin cfg1.N) (h : t.val % 8 = 0) :
    acc1 V c t.val t.isLt = k1_pay2 k1_pay1 (lhs1 V c t) (rhs1 V c t) := by
  obtain ⟨n, hn⟩ := t
  cases n with
  | zero => rfl
  | succ n => exact (if_pos h).trans rfl

/-- Elsewhere one more block product is added to what the point before left. -/
theorem acc1_next (c : Dev nD) (t : Fin cfg1.N) (h : ¬t.val % 8 = 0) :
    acc1 V c t.val t.isLt
      = k1_pay2 (acc1 V c (t.val - 1) (Nat.lt_of_le_of_lt (Nat.sub_le _ _) t.isLt)) (lhs1 V c t) (rhs1 V c t) := by
  obtain ⟨n, hn⟩ := t
  cases n with
  | zero => exact absurd (Nat.zero_mod _) h
  | succ n => exact (if_neg h).trans rfl

/-! ## The invariant, by position -/

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn
      = iprop(with1 c (owns (c : Thread nD τ) scM1 fullShare (acc1 V c n hn)) ∗ (∃ r, prngReg c r)) := rfl

theorem PhiS1_pos (c : Dev nD) (n : ℕ) (h : n ≤ cfg1.N) (hz : n ≠ 0) :
    PhiS1 V c n h
      = iprop(with1 c (owns (c : Thread nD τ) scM1 fullShare (acc1 V c (n - 1) (by omega))) ∗ (∃ r, prngReg c r)) := by
  cases n with
  | zero => exact absurd rfl hz
  | succ n => rfl

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-! ## What the body finds and leaves, window by window -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

/-- A factor window is fetched at every point, so its current buffer holds its block. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-! ## The buffers the region never touches ride along -/

/-- What is said of the scratch can be taken out from under the untouched buffers and something else put back. -/
theorem with1_lend (c : Dev nD) (X Y : sProp 𝕄) : with1 c X ⊢ iprop(X ∗ (Y -∗ with1 c Y)) := by
  unfold with1
  iintro ⟨R0, R1, R2, R3, R4, R5, R6, HX⟩
  isplitl [HX]; · iexact HX
  iintro HY
  isplitl [R0]; · iexact R0
  isplitl [R1]; · iexact R1
  isplitl [R2]; · iexact R2
  isplitl [R3]; · iexact R3
  isplitl [R4]; · iexact R4
  isplitl [R5]; · iexact R5
  isplitl [R6]; · iexact R6
  iexact HY

/-! ## The body obligation, at a generic point -/

/-- Each window's current staging memref at a point, with its wholeness. The product's block is f32 here. -/
abbrev m1_0 (t : Fin cfg1.N) : Memref sig .tc .vmem S1024x1024 .bf16 := win1_0.stage (cfg1.slots t 0)
abbrev h1_0 (t : Fin cfg1.N) : (m1_0 t).IsWhole := hstage1_0 ((cfg1.slots t 0).cast nbuf1_0)
abbrev m1_1 (t : Fin cfg1.N) : Memref sig .tc .vmem S1024x1024 .bf16 := win1_1.stage (cfg1.slots t 1)
abbrev h1_1 (t : Fin cfg1.N) : (m1_1 t).IsWhole := hstage1_1 ((cfg1.slots t 1).cast nbuf1_1)
abbrev m1_2 (t : Fin cfg1.N) : Memref sig .tc .vmem S1024x1024 .f32 := win1_2.stage (cfg1.slots t 2)
abbrev h1_2 (t : Fin cfg1.N) : (m1_2 t).IsWhole := hstage1_2 ((cfg1.slots t 2).cast nbuf1_2)

/-- What the body is handed at a point: the invariant, what the core owes, and the three current buffers, -/
def bodyPre1 (c : Dev nD) (t : Fin cfg1.N) : sProp 𝕄 :=
  iprop((dat1 V c).Φ t.castSucc ∗ (dat1 V c).owesAt () t.castSucc
    ∗ (∃ d, owns (c : Thread nD τ) (m1_0 t) fullShare ((dat1 V c).before 0 t d))
    ∗ (∃ d, owns (c : Thread nD τ) (m1_1 t) fullShare ((dat1 V c).before 1 t d))
    ∗ (∃ d, owns (c : Thread nD τ) (m1_2 t) fullShare ((dat1 V c).before 2 t d)))

/-- and what it hands back. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

/-- A factor window is live everywhere: the body leaves its buffer at the block. -/
theorem leaves1_0 (c : Dev nD) (t : Fin cfg1.N) :
    (dat1 V c).leavesExact 0 t = owns (c : Thread nD τ) (m1_0 t) fullShare (lhs1 V c t) := by
  rw [show (dat1 V c).leavesExact 0 t = owns (c : Thread nD τ) (m1_0 t) fullShare ((dat1 V c).after 0 t) from by
    unfold Dat.leavesExact; rw [live1_0 t], after1_0]
theorem leaves1_1 (c : Dev nD) (t : Fin cfg1.N) :
    (dat1 V c).leavesExact 1 t = owns (c : Thread nD τ) (m1_1 t) fullShare (rhs1 V c t) := by
  rw [show (dat1 V c).leavesExact 1 t = owns (c : Thread nD τ) (m1_1 t) fullShare ((dat1 V c).after 1 t) from by
    unfold Dat.leavesExact; rw [live1_1 t], after1_1]
/-- The product window where the sum is complete: live, left at the sum itself (the product is kept in f32). -/
theorem leaves1_2_last (c : Dev nD) (t : Fin cfg1.N) (h : last1 (grid1.coords t)) :
    (dat1 V c).leavesExact 2 t = owns (c : Thread nD τ) (m1_2 t) fullShare (acc1 V c t.val t.isLt) := by
  rw [show (dat1 V c).leavesExact 2 t = owns (c : Thread nD τ) (m1_2 t) fullShare ((dat1 V c).after 2 t) from by
    unfold Dat.leavesExact; rw [live1_2 t h], after1_2]

set_option maxHeartbeats 1600000 in
/-- The body at any point. The factor buffers hold their blocks; the point's place in its run of eight says which
    case runs; the invariant lends the scratch out from under the untouched buffers (at anything before the first point,
    at the running sum afterwards) and takes it back one block product further; where the sum is incomplete the product
    buffer goes back as found, where it is complete it receives the sum. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ, PhiS1_castSucc]
  rw [leaves1_0, leaves1_1]
  by_cases h0 : t.val % 8 = 0
  · have hf : first1 (grid1.coords t) := (first1_iff t).mpr h0
    have hl : ¬last1 (grid1.coords t) := fun h => by have := (last1_iff t).mp h; omega
    rw [Dat.leavesExact_idle (dat1 V c) 2 t (idle1_2 t hl) (noFlush1_2 t hl), acc1_first V c t h0]
    by_cases hz : t.val = 0
    · rw [PhiS1_zero V c _ _ hz, PhiA1_eq]
      iintro ⟨⟨HW, Hg⟩, Ho, ⟨%d0, H0⟩, ⟨%d1, H1⟩, ⟨%d2, H2⟩⟩
      icases (with1_lend c _ (owns (c : Thread nD τ) scM1 fullShare (k1_pay2 k1_pay1 (lhs1 V c t) (rhs1 V c t)))) $$ HW with ⟨HS, Hback⟩
      iapply (run1_A c Set.univ (grid1.coords t) (m1_0 t) (h1_0 t) (m1_1 t) (h1_1 t) (m1_2 t) (h1_2 t) scM1 (Memref.isWhole_whole _)
        hf hl (lhs1 V c t) (rhs1 V c t) ((dat1 V c).before 2 t d2) _)
      isplitl [H0]; · iexact H0
      isplitl [H1]; · iexact H1
      isplitl [H2]; · iexact H2
      isplitl [HS]; · iexact HS
      iintro ⟨H0, H1, H2, HS⟩
      isplitl [HS Hback Hg]
      · isplitl [HS Hback]
        · iapply Hback; iexact HS
        iexact Hg
      isplitl [Ho]; · iexact Ho
      isplitl [H0]; · iexact H0
      isplitl [H1]; · iexact H1
      iexists d2; iexact H2
    · rw [PhiS1_pos V c _ _ hz]
      iintro ⟨⟨HW, Hg⟩, Ho, ⟨%d0, H0⟩, ⟨%d1, H1⟩, ⟨%d2, H2⟩⟩
      icases (with1_lend c _ (owns (c : Thread nD τ) scM1 fullShare (k1_pay2 k1_pay1 (lhs1 V c t) (rhs1 V c t)))) $$ HW with ⟨HS, Hback⟩
      iapply (run1_A c Set.univ (grid1.coords t) (m1_0 t) (h1_0 t) (m1_1 t) (h1_1 t) (m1_2 t) (h1_2 t) scM1 (Memref.isWhole_whole _)
        hf hl (lhs1 V c t) (rhs1 V c t) ((dat1 V c).before 2 t d2) _)
      isplitl [H0]; · iexact H0
      isplitl [H1]; · iexact H1
      isplitl [H2]; · iexact H2
      isplitl [HS]; · iexists _; iexact HS
      iintro ⟨H0, H1, H2, HS⟩
      isplitl [HS Hback Hg]
      · isplitl [HS Hback]
        · iapply Hback; iexact HS
        iexact Hg
      isplitl [Ho]; · iexact Ho
      isplitl [H0]; · iexact H0
      isplitl [H1]; · iexact H1
      iexists d2; iexact H2
  · have hf : ¬first1 (grid1.coords t) := fun h => h0 ((first1_iff t).mp h)
    have hz : t.val ≠ 0 := fun e => h0 (by rw [e])
    rw [PhiS1_pos V c _ _ hz, acc1_next V c t h0]
    by_cases h7 : t.val % 8 = 7
    · have hl : last1 (grid1.coords t) := (last1_iff t).mpr h7
      rw [leaves1_2_last V c t hl, acc1_next V c t h0]
      iintro ⟨⟨HW, Hg⟩, Ho, ⟨%d0, H0⟩, ⟨%d1, H1⟩, ⟨%d2, H2⟩⟩
      icases (with1_lend c _ (owns (c : Thread nD τ) scM1 fullShare (k1_pay2 (acc1 V c (t.val - 1) (Nat.lt_of_le_of_lt (Nat.sub_le _ _) t.isLt)) (lhs1 V c t) (rhs1 V c t)))) $$ HW with ⟨HS, Hback⟩
      iapply (run1_C c Set.univ (grid1.coords t) (m1_0 t) (h1_0 t) (m1_1 t) (h1_1 t) (m1_2 t) (h1_2 t) scM1 (Memref.isWhole_whole _)
        hf hl (lhs1 V c t) (rhs1 V c t) (acc1 V c (t.val - 1) (Nat.lt_of_le_of_lt (Nat.sub_le _ _) t.isLt)) _)
      isplitl [H0]; · iexact H0
      isplitl [H1]; · iexact H1
      isplitl [H2]; · iexists _; iexact H2
      isplitl [HS]; · iexact HS
      iintro ⟨H0, H1, H2, HS⟩
      isplitl [HS Hback Hg]
      · isplitl [HS Hback]
        · iapply Hback; iexact HS
        iexact Hg
      isplitl [Ho]; · iexact Ho
      isplitl [H0]; · iexact H0
      isplitl [H1]; · iexact H1
      iexact H2
    · have hl : ¬last1 (grid1.coords t) := fun h => h7 ((last1_iff t).mp h)
      rw [Dat.leavesExact_idle (dat1 V c) 2 t (idle1_2 t hl) (noFlush1_2 t hl)]
      iintro ⟨⟨HW, Hg⟩, Ho, ⟨%d0, H0⟩, ⟨%d1, H1⟩, ⟨%d2, H2⟩⟩
      icases (with1_lend c _ (owns (c : Thread nD τ) scM1 fullShare (k1_pay2 (acc1 V c (t.val - 1) (Nat.lt_of_le_of_lt (Nat.sub_le _ _) t.isLt)) (lhs1 V c t) (rhs1 V c t)))) $$ HW with ⟨HS, Hback⟩
      iapply (run1_B c Set.univ (grid1.coords t) (m1_0 t) (h1_0 t) (m1_1 t) (h1_1 t) (m1_2 t) (h1_2 t) scM1 (Memref.isWhole_whole _)
        hf hl (lhs1 V c t) (rhs1 V c t) ((dat1 V c).before 2 t d2) (acc1 V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HS Hback Hg]
      · isplitl [HS Hback]
        · iapply Hback; iexact HS
        iexact Hg
      isplitl [Ho]; · iexact Ho
      isplitl [H0]; · iexact H0
      isplitl [H1]; · iexact H1
      iexists d2; iexact H2

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the running sum's name is forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨HW, Hg⟩
  icases (with1_lend c _ (iprop(∃ d, owns (c : Thread nD τ) scM1 fullShare d))) $$ HW with ⟨HS, Hback⟩
  isplitl [HS Hback]
  · iapply Hback; iexists _; iexact HS
  iexact Hg

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.KB.Launch.lean ====
/-
  The whole program as a run: three stretches of host operations, then the two products back to back. Each product is
  entered from "every unscoped buffer at the contents the item before left", its own arrays split off and put back at
  what its write-backs leave; the second product reads the first one's result array. Read off the last boundary:
  the arguments as launched, and the result array at the second product's folded write-backs.
-/
import proofs.«131328_j7430293422438_1_alg».proof.Proof.KB.Oblig0
import proofs.«131328_j7430293422438_1_alg».proof.Proof.KB.Oblig1
import proofs.«131328_j7430293422438_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents between the items -/

/-- Core `c`'s buffers after the first host stretch, and after the second (after the third: `B3`). -/
abbrev B1 (c : Dev nD) : Valuation τ sig (Elt F) := StableHlo.after hostOps0 (B0 m c)
abbrev B2 (c : Dev nD) : Valuation τ sig (Elt F) := StableHlo.after hostOps0_1 (B1 m c)

/-- A buffer none of the three host stretches writes reaches the first product as launched. -/
theorem B3_of (c : Dev nD) (r : Ref sig .tc) (h0 : r ∉ hostOps0_W) (h1 : r ∉ hostOps0_1_W) (h2 : r ∉ hostOps0_2_W) :
    B3 m c (Proc.devRef .tc r) = m ((c : Thread nD τ).loc r) :=
  (StableHlo.after_of_writes_sub hostOps0_2 _ hostOps0_2_writes h2).trans <|
    (StableHlo.after_of_writes_sub hostOps0_1 _ hostOps0_1_writes h1).trans <|
      (StableHlo.after_of_writes_sub hostOps0 _ hostOps0_writes h0).trans rfl

/-- At the first product's exit: its arrays at their folded write-backs, every other buffer as entered. -/
theorem B4_arr (c : Dev nD) (w : Fin cfg0.W) :
    B4 m c (Proc.devRef .tc (Pipeline.arrRef spec0 w)) = (dat0 (V3 m) c).arrAt w cfg0.N := by
  unfold B4; exact Pipeline.withArrays_arr spec0 launch0.win.arr_inj c _ _ w
theorem B4_of_ne (c : Dev nD) (b : Ref sig .tc) (hb : ∀ w, Pipeline.arrRef spec0 w ≠ b) :
    B4 m c (Proc.devRef .tc b) = B3 m c (Proc.devRef .tc b) := by
  unfold B4; exact Pipeline.withArrays_of_ne spec0 c _ _ b hb
/-- The same at the second product's exit. -/
theorem B5_arr (c : Dev nD) (w : Fin cfg1.W) :
    B5 m c (Proc.devRef .tc (Pipeline.arrRef spec1 w)) = (dat1 (V4 m) c).arrAt w cfg1.N := by
  unfold B5; exact Pipeline.withArrays_arr spec1 launch1.win.arr_inj c _ _ w
theorem B5_of_ne (c : Dev nD) (b : Ref sig .tc) (hb : ∀ w, Pipeline.arrRef spec1 w ≠ b) :
    B5 m c (Proc.devRef .tc b) = B4 m c (Proc.devRef .tc b) := by
  unfold B5; exact Pipeline.withArrays_of_ne spec1 c _ _ b hb
abbrev V5 (c : Dev nD) (b : Ref sig .tc) : Buf (Elt F) ((c : Thread nD τ).loc b) := B5 m c b

/-- A buffer that is no array of either product and that no host stretch writes ends as launched. -/
theorem B5_of (c : Dev nD) (r : Ref sig .tc) (hs1 : ∀ w, Pipeline.arrRef spec1 w ≠ r) (hs0 : ∀ w, Pipeline.arrRef spec0 w ≠ r)
    (h0 : r ∉ hostOps0_W) (h1 : r ∉ hostOps0_1_W) (h2 : r ∉ hostOps0_2_W) :
    B5 m c (Proc.devRef .tc r) = m ((c : Thread nD τ).loc r) :=
  (B5_of_ne m c r hs1).trans <| (B4_of_ne m c r hs0).trans <| B3_of m c r h0 h1 h2

/-- The result array is the second product's third window's array. -/
theorem B5_result (c : Dev nD) : B5 m c (Proc.devRef .tc main_v27) = (dat1 (V4 m) c).arrAt 2 cfg1.N :=
  B5_arr m c 2

theorem B5_main_arg0 (c : Dev nD) : B5 m c (Proc.devRef .tc main_arg0) = m ((c : Thread nD τ).loc main_arg0) :=
  B5_of m c main_arg0 (by decide) (by decide) (by decide) (by decide) (by decide)
theorem B5_main_arg1 (c : Dev nD) : B5 m c (Proc.devRef .tc main_arg1) = m ((c : Thread nD τ).loc main_arg1) :=
  B5_of m c main_arg1 (by decide) (by decide) (by decide) (by decide) (by decide)
theorem B5_main_arg2 (c : Dev nD) : B5 m c (Proc.devRef .tc main_arg2) = m ((c : Thread nD τ).loc main_arg2) :=
  B5_of m c main_arg2 (by decide) (by decide) (by decide) (by decide) (by decide)

/-! ## The proof data family and the thread state -/

/-- Each product's proof data at the contents it is entered at: the first at `B3`, the second at what the first left. -/
def pdats : (p : Fin 2) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V4 m) c

abbrev 𝒱₀ : Variants := Variants.none
/-- No core owes another anything. -/
abbrev L : GSem nD τ sig → Finset Unit := fun _ => ∅
abbrev lv : GSem nD τ sig → Unit → ℕ := fun _ _ => 0
/-- Beside the buffers every item carries the core's generator register at some state and its dues, at nothing. -/
abbrev R (c : Dev nD) : sProp 𝕄 := iprop((∃ r, prngReg c r) ∗ ∃ W, owes (c : Thread nD τ) (0 : CellTallies nD τ sig Unit) W)
/-- What a core holds between two items: every unscoped buffer whole at the boundary's contents, and `R`. -/
abbrev St (B : Dev nD → Valuation τ sig (Elt F)) (c : Dev nD) : sProp 𝕄 :=
  iprop(StableHlo.held (c : Thread nD τ) (Pipeline.ucRefs τ sig) (B c) ∗ R c)

/-- A host stretch as a segment, from the contents `B` to `StableHlo.after ops (B c)`. -/
abbrev hseg (ops : List (HloOp τ sig (Elt F))) (hsub : ops.Forall fun op => op.bufs ⊆ StableHlo.tcRefs τ sig)
    (hfresh : ops.Forall fun op => op.fresh = ∅) (B : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) B R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The two products as segments -/

set_option backward.isDefEq.respectTransparency.types false in
/-- The first product: entered at `B3`, left at `B4`. Its three arrays are split out of the unscoped buffers and put
    back at what the write-backs leave; the generator register goes into the class invariant, which is the region
    invariant before the first point (`hin0`), and comes back out of it after the last (`hout0`). -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre := St (B3 m)
  post := St (B4 m)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun w => A_eq0 (V3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (V3 m) c).Φ 0 from rfl]
    iintro ⟨Hp, -, Hr⟩
    iapply (hin0 (V3 m) c)
    unfold Pipeline.ΦA
    isplitl [Hr]; · iexact Hr
    iexact Hp
  hout c := by
    rw [Pipeline.ownSems0_none]
    refine (hout0 (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (fun w => (B4_arr m c w).symm)
      (fun b hb => B4_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second product: entered at `B4` (the first one's exit: nothing runs between them), left at `B5`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m) c).loose
  hwaits := Pipeline.hwaits_of_owed_zero _ _ _ _ L lv 1 fun _ _ => rfl
  pre := St (B4 m)
  post := St (B5 m)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun w => A_eq1 (V4 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V4 m) c).Φ 0 from rfl]
    iintro ⟨Hp, -, Hr⟩
    iapply (hin1 (V4 m) c)
    unfold Pipeline.ΦA
    isplitl [Hr]; · iexact Hr
    iexact Hp
  hout c := by
    rw [Pipeline.ownSems0_none]
    refine (hout1 (V4 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (V5 m c) ((pdats m 1 c).arrAt · cfg1.N) (fun w => (B5_arr m c w).symm)
      (fun b hb => B5_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The five items in order: the three host stretches, each from the contents the one before left, then the two products. -/
abbrev segs : List (Pipeline.Seg (pcfgs (F := F)) adm (pdats m) () defs₀ 𝒱₀ L lv) :=
  [ .host (hseg hostOps0 hostOps0_sub hostOps0_fresh (B0 m)),
    .host (hseg hostOps0_1 hostOps0_1_sub hostOps0_1_fresh (B1 m)),
    .host (hseg hostOps0_2 hostOps0_2_sub hostOps0_2_fresh (B2 m)),
    .region (reg0 m),
    .region (reg1 m) ]

/-- The program is the run of its five items: both are the chain of the items' fragments. -/
theorem main_run (c : Dev nD) : main (F := F) c = Pipeline.Seg.run (segs m) := by
  rw [main_chain c, Pipeline.Seg.run_eq_chain]; rfl

set_option backward.isDefEq.respectTransparency.types false in
/-- THE RUN. From any memory with zero counters every weakly fair execution of @main terminates, nothing faulting; the
    result array ends at what the second product's write-backs leave in it, and the three arguments as launched. -/
theorem run_result : θ_run defs (onTc (τ := τ) (main (F := F))) ⟨m, fun _ => 0, ρ⟩ (fun r => ∀ c : Dev nD,
      r.2.mem ((c.tc : Thread nD τ).loc main_v27) = (dat1 (V4 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := St (B0 m))
    (Tₙ := fun c => iprop(StableHlo.held (c : Thread nD τ) (Pipeline.ucRefs τ sig) (B5 m c) ∗ ∃ r, prngReg c r))
    (hch := ⟨fun _ => .rfl, fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m c b)
    (hfin := fun c s' => by
      iintro ⟨⟨Hh, -⟩, HSI⟩
      unfold StableHlo.held
      imodintro
      iapply (pointsTo_read_all (Pipeline.ucRefs τ sig) (fun b => (((c : Thread nD τ)).1, b)) (B5 m c) s')
      isplitl [Hh] <;> iassumption)
    (hQ := fun s h c =>
      ⟨(h c _ (mem_uc main_v27 (by decide))).trans (B5_result m c),
       (h c _ (mem_uc main_arg0 (by decide))).trans (B5_main_arg0 m c),
       (h c _ (mem_uc main_arg1 (by decide))).trans (B5_main_arg1 m c),
       (h c _ (mem_uc main_arg2 (by decide))).trans (B5_main_arg2 m c)⟩)

/-- The frame: the run with the result dropped. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_result m ρ)

end Cert.Kernel.Hand

end
-- ==== Proof.KI.RegionData.lean ====
/-
  The two matrix products of the program, each a pipelined region that walks a grid (i, j, k) with k innermost
  and keeps a running sum in a scratch buffer: what each window's block is at a point, what the scratch holds
  after each point (the sum is restarted where k = 0 and grows by one block product per point), what the region
  invariant says between points, and the proof data of each region over the contents `V` the region is entered at.
-/
import proofs.«131328_j7430293422438_1_alg».proof.Proof.Gen.KernelIdeal.Launch
import proofs.«131328_j7430293422438_1_alg».proof.Proof.Gen.KernelIdeal.Skeleton
import proofs.«131328_j7430293422438_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The first product: left factor window 0, right factor window 1, product window 2, grid 8 × 8 × 8 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left and right factor blocks at a point, at their literal types. -/
abbrev lhs0 (c : Dev nD) (t : Fin cfg0.N) : Vec F S1024x1024 .bf16 := iblk0 V c 0 t
abbrev rhs0 (c : Dev nD) (t : Fin cfg0.N) : Vec F S1024x1024 .bf16 := iblk0 V c 1 t

/-- THE RUNNING SUM. What the scratch holds after the body at position `n`: one more block product added to what
    the point before left — to zero where the innermost coordinate is 0 (every eighth point), the sum restarting. -/
def acc0 (c : Dev nD) : (n : ℕ) → n < cfg0.N → Vec F S1024x1024 .f32
  | 0, h => k0_pay2 k0_pay1 (lhs0 V c ⟨0, h⟩) (rhs0 V c ⟨0, h⟩)
  | n + 1, h =>
    if (n + 1) % 8 = 0 then k0_pay2 k0_pay1 (lhs0 V c ⟨n + 1, h⟩) (rhs0 V c ⟨n + 1, h⟩)
    else k0_pay2 (acc0 c n (Nat.lt_of_succ_lt h)) (lhs0 V c ⟨n + 1, h⟩) (rhs0 V c ⟨n + 1, h⟩)

/-- The scratch operand as a whole memref. -/
abbrev scM0 : Memref sig .tc .vmem S1024x1024 .f32 := Memref.whole cc0_scratch0

/-- The core's scoped buffers that region 0 never touches (the second product's staging buffers and scratch), each
    whole at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant with the scratch split off as an owned memref. -/
theorem PhiA0_eq (c : Dev nD) :
    (Pipeline.ΦA spec0 c : sProp 𝕄)
      = iprop(((∃ d, owns (c : Thread nD τ) scM0 fullShare d) ∗ others0 c) ∗ (∃ r, prngReg c r)) := by
  unfold Pipeline.ΦA others0; rw [scopedRest0_eq]; simp only [scM0, owns_whole]; try rfl

/-- The region invariant before position `n`: before the first point every scoped buffer at anything; afterwards the
    scratch at the running sum the point before left. -/
def PhiS0 (c : Dev nD) : (n : ℕ) → n ≤ cfg0.N → sProp 𝕄
  | 0, _ => Pipeline.ΦA spec0 c
  | n + 1, hn => iprop((owns (c : Thread nD τ) scM0 fullShare (acc0 V c n hn) ∗ others0 c) ∗ (∃ r, prngReg c r))

/-- The proof data of the first product on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val t.isLt)
  Φ t := PhiS0 V c t.val (Nat.le_of_lt_succ t.isLt)
  q _ := fullShare
  owed _ := 0

/-! ## The second product: the same kernel on grid 8 × 1 × 8, its result kept in f32 -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev lhs1 (c : Dev nD) (t : Fin cfg1.N) : Vec F S1024x1024 .bf16 := iblk1 V c 0 t
abbrev rhs1 (c : Dev nD) (t : Fin cfg1.N) : Vec F S1024x1024 .bf16 := iblk1 V c 1 t

def acc1 (c : Dev nD) : (n : ℕ) → n < cfg1.N → Vec F S1024x1024 .f32
  | 0, h => k1_pay2 k1_pay1 (lhs1 V c ⟨0, h⟩) (rhs1 V c ⟨0, h⟩)
  | n + 1, h =>
    if (n + 1) % 8 = 0 then k1_pay2 k1_pay1 (lhs1 V c ⟨n + 1, h⟩) (rhs1 V c ⟨n + 1, h⟩)
    else k1_pay2 (acc1 c n (Nat.lt_of_succ_lt h)) (lhs1 V c ⟨n + 1, h⟩) (rhs1 V c ⟨n + 1, h⟩)

abbrev scM1 : Memref sig .tc .vmem S1024x1024 .f32 := Memref.whole cc1_scratch0

/-- The core's scoped buffers that region 1 never stages (the first product's staging buffers and scratch), each whole
    at some contents, followed by what is said of region 1's own scratch (`X`): the order the launch lists them in. -/
def with1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ X)

theorem PhiA1_eq (c : Dev nD) :
    (Pipeline.ΦA spec1 c : sProp 𝕄)
      = iprop(with1 c (iprop(∃ d, owns (c : Thread nD τ) scM1 fullShare d)) ∗ (∃ r, prngReg c r)) := by
  unfold Pipeline.ΦA with1; rw [scopedRest1_eq]; simp only [scM1, owns_whole]; try rfl

def PhiS1 (c : Dev nD) : (n : ℕ) → n ≤ cfg1.N → sProp 𝕄
  | 0, _ => Pipeline.ΦA spec1 c
  | n + 1, hn => iprop(with1 c (owns (c : Thread nD τ) scM1 fullShare (acc1 V c n hn)) ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

end Regions

/-! ## The body's two branches, decided over the grids -/

/-- "The innermost coordinate is 0": the sum restarts. -/
abbrev first0 (i : grid0.Coords) : Prop := (Scalar.cmpi .ne (Scalar.extui (Scalar.cmpi .eq (BitVec.ofNat 32 (i 2).val) 0#32)) 0#32) = 1#1
theorem first0_iff : ∀ t : Fin cfg0.N, first0 (grid0.coords t) ↔ t.val % 8 = 0 :=
  (by decide +kernel : ∀ t : Fin grid0.N, first0 (grid0.coords t) ↔ t.val % 8 = 0)
/-- "The innermost coordinate is 7": the sum is complete and is stored into the product's block. -/
abbrev last0 (i : grid0.Coords) : Prop := k0_cond2 i = 1#1
theorem last0_iff : ∀ t : Fin cfg0.N, last0 (grid0.coords t) ↔ t.val % 8 = 7 :=
  (by decide +kernel : ∀ t : Fin grid0.N, last0 (grid0.coords t) ↔ t.val % 8 = 7)
abbrev first1 (i : grid1.Coords) : Prop := (Scalar.cmpi .ne (Scalar.extui (Scalar.cmpi .eq (BitVec.ofNat 32 (i 2).val) 0#32)) 0#32) = 1#1
theorem first1_iff : ∀ t : Fin cfg1.N, first1 (grid1.coords t) ↔ t.val % 8 = 0 :=
  (by decide +kernel : ∀ t : Fin grid1.N, first1 (grid1.coords t) ↔ t.val % 8 = 0)
abbrev last1 (i : grid1.Coords) : Prop := k1_cond2 i = 1#1
theorem last1_iff : ∀ t : Fin cfg1.N, last1 (grid1.coords t) ↔ t.val % 8 = 7 :=
  (by decide +kernel : ∀ t : Fin grid1.N, last1 (grid1.coords t) ↔ t.val % 8 = 7)

/-- The factor windows are never idle; the product window is idle, and not written back, exactly where the sum is incomplete. -/
theorem live0_0 : ∀ t : Fin cfg0.N, cfg0.idle 0 (grid0.coords t) = false := by decide +kernel
theorem live0_1 : ∀ t : Fin cfg0.N, cfg0.idle 1 (grid0.coords t) = false := by decide +kernel
theorem idle0_2 : ∀ t : Fin cfg0.N, ¬last0 (grid0.coords t) → cfg0.idle 2 (grid0.coords t) = true := by decide +kernel
theorem noFlush0_2 : ∀ t : Fin cfg0.N, ¬last0 (grid0.coords t) → (cfg0.win 2).flush t = false := by decide +kernel
theorem live0_2 : ∀ t : Fin cfg0.N, last0 (grid0.coords t) → cfg0.idle 2 (grid0.coords t) = false := by decide +kernel
theorem live1_0 : ∀ t : Fin cfg1.N, cfg1.idle 0 (grid1.coords t) = false := by decide +kernel
theorem live1_1 : ∀ t : Fin cfg1.N, cfg1.idle 1 (grid1.coords t) = false := by decide +kernel
theorem idle1_2 : ∀ t : Fin cfg1.N, ¬last1 (grid1.coords t) → cfg1.idle 2 (grid1.coords t) = true := by decide +kernel
theorem noFlush1_2 : ∀ t : Fin cfg1.N, ¬last1 (grid1.coords t) → (cfg1.win 2).flush t = false := by decide +kernel
theorem live1_2 : ∀ t : Fin cfg1.N, last1 (grid1.coords t) → cfg1.idle 2 (grid1.coords t) = false := by decide +kernel

/-! ## The buffers' contents at the regions' boundaries -/

section Boundaries
variable (m : (ℓ : Loc nD τ sig) → Buf (Elt F) ℓ)

/-- Core `c`'s buffers at launch, -/
abbrev B0 (c : Dev nD) : Valuation τ sig (Elt F) := fun b => m (c, b)
/-- after the host operations before the first product (its entry), -/
abbrev B3 (c : Dev nD) : Valuation τ sig (Elt F) := StableHlo.after hostOps0_2 (StableHlo.after hostOps0_1 (StableHlo.after hostOps0 (B0 m c)))
abbrev V3 (c : Dev nD) (b : Ref sig .tc) : Buf (Elt F) ((c : Thread nD τ).loc b) := B3 m c b
/-- at the first product's exit (the second's entry): its arrays at what its write-backs leave, -/
def B4 (c : Dev nD) : Valuation τ sig (Elt F) :=
  Pipeline.withArrays spec0 c (B3 m c) fun w => (dat0 (V3 m) c).arrAt w cfg0.N
abbrev V4 (c : Dev nD) (b : Ref sig .tc) : Buf (Elt F) ((c : Thread nD τ).loc b) := B4 m c b
/-- and at the second product's exit. -/
def B5 (c : Dev nD) : Valuation τ sig (Elt F) :=
  Pipeline.withArrays spec1 c (B4 m c) fun w => (dat1 (V4 m) c).arrAt w cfg1.N

end Boundaries

end Cert.KernelIdeal.Hand

end
-- ==== Proof.KI.Body0.lean ====
/-
  The first product's kernel body run symbolically, once per way its two branches fall on the grid:
  (A) innermost coordinate 0 — the scratch is zeroed, then one block product is added;
  (B) innermost coordinate 1..6 — one block product is added to what the scratch held;
  (C) innermost coordinate 7 — the same, and the finished sum, narrowed to bf16, is stored into the product's block.
-/
import proofs.«131328_j7430293422438_1_alg».proof.Proof.KI.RegionData
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Loads and stores through the whole-shape rectangle -/

/-- The offset vector `![0, 0]` is the constant zero. -/
private theorem hz2 : (![0, 0] : Fin S1024x1024.rank → ℕ) = fun _ => 0 := by
  funext a; fin_cases a <;> rfl

/-- The whole-shape rectangle holds every index, so a list of writes headed by a write through it covers the shape. -/
private theorem cover_whole {e : EltTy} (w : S1024x1024.Idx → Elt F e) (L : List (View.Piece (Elt F) S1024x1024 e)) (y : S1024x1024.Idx) :
    ∃ p ∈ (⟨Rect.unit (s := S1024x1024) ![0, 0] S1024x1024.size inb_S1024x1024_S1024x1024_0_0, w⟩ : View.Piece (Elt F) S1024x1024 e) :: L, y ∈ p.1.set :=
  ⟨⟨Rect.unit (s := S1024x1024) ![0, 0] S1024x1024.size inb_S1024x1024_S1024x1024_0_0, w⟩, List.mem_cons_self,
    View.mem_set_unit_zero (S := S1024x1024) hz2 inb_S1024x1024_S1024x1024_0_0 y⟩

/-- The last store, when it goes through the whole-shape rectangle, leaves its payload: whatever the buffer held,
    whatever was stored before, however the buffer is viewed. -/
private theorem read_writes_whole {e : EltTy} (v : View sig .tc .vmem S1024x1024 e) (f : v.ty.Contents (Elt F))
    (w : S1024x1024.Idx → Elt F e) (L : List (View.Piece (Elt F) S1024x1024 e)) :
    v.read (Elt F) (v.writes (Elt F) f
      ((⟨Rect.unit (s := S1024x1024) ![0, 0] S1024x1024.size inb_S1024x1024_S1024x1024_0_0, w⟩ : View.Piece (Elt F) S1024x1024 e) :: L)) = w := by
  rw [View.read_writes_eq_canon _ _ _ (cover_whole w L)]
  exact View.canon_cons_unit_zero (S := S1024x1024) hz2 inb_S1024x1024_S1024x1024_0_0 w L

/-- A load through the whole-shape rectangle reads the contents. -/
private theorem readAt_whole {e : EltTy} (v : View sig .tc .vmem S1024x1024 e) (f : v.ty.Contents (Elt F)) :
    v.readAt (Elt F) (Rect.unit (s := S1024x1024) ![0, 0] S1024x1024.size inb_S1024x1024_S1024x1024_0_0).toLoadRect f = v.read (Elt F) f := by
  rw [View.readAt_eq_ld]; exact View.ld_unit_zero (S := S1024x1024) hz2 inb_S1024x1024_S1024x1024_0_0 _

/-- A load through the whole-shape rectangle, after one store through it, reads that store's payload. -/
private theorem readCov_whole {e : EltTy} (v : View sig .tc .vmem S1024x1024 e) (w : S1024x1024.Idx → Elt F e) :
    v.readCov [(⟨Rect.unit (s := S1024x1024) ![0, 0] S1024x1024.size inb_S1024x1024_S1024x1024_0_0, w⟩ : View.Piece (Elt F) S1024x1024 e)]
      (Rect.unit (s := S1024x1024) ![0, 0] S1024x1024.size inb_S1024x1024_S1024x1024_0_0).toLoadRect = w :=
  View.readCov_unit_zero (S := S1024x1024) v hz2 inb_S1024x1024_S1024x1024_0_0 w

/-! ## The three runs -/

/-- Case A: the sum restarts. The factor blocks and the (idle) product buffer come back as they were; the scratch, at
    anything before, ends at zero plus the block product. -/
theorem run0_A (c : Dev nD) (E : Set ℕ) (i : grid0.Coords)
    (arg3 : Memref sig .tc .vmem S1024x1024 .bf16) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1024x1024 .f32) (harg6 : arg6.IsWhole)
    (h1 : first0 i) (h2 : ¬last0 i)
    (x0 x1 xo : Vec F S1024x1024 .bf16) (K : PUnit → sProp 𝕄) :
    iprop(owns (c : Thread nD τ) arg3 fullShare x0 ∗ owns (c : Thread nD τ) arg4 fullShare x1 ∗ owns (c : Thread nD τ) arg5 fullShare xo
        ∗ (∃ d, owns (c : Thread nD τ) arg6 fullShare d)
        ∗ (iprop(owns (c : Thread nD τ) arg3 fullShare x0 ∗ owns (c : Thread nD τ) arg4 fullShare x1 ∗ owns (c : Thread nD τ) arg5 fullShare xo
            ∗ owns (c : Thread nD τ) arg6 fullShare (k0_pay2 k0_pay1 x0 x1)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%fo, %hfo, HO⟩, ⟨%ds, %fs, -, HS⟩, Hk⟩
  -- a whole buffer's contents are determined by the vector they read back to
  obtain rfl := harg3.eq_unread hf0; obtain rfl := harg4.eq_unread hf1; obtain rfl := harg5.eq_unread hfo
  -- the body's loads and stores in order, each branch decided by the case's hypotheses
  sl_exec (disch := first | exact h1 | exact h2)
  sl_step
  iapply Hk
  -- the factor blocks were only loaded: they go back as they came
  isplitl [H0]
  · iexists _; isplitr; · ipureintro; exact hf0
    iexact H0
  isplitl [H1]
  · iexists _; isplitr; · ipureintro; exact hf1
    iexact H1
  -- so does the product buffer, which this case does not touch
  isplitl [HO]
  · iexists _; isplitr; · ipureintro; exact hfo
    iexact HO
  -- the scratch was stored twice, zero and then the sum; the later store covers it, and the sum's load of the
  -- scratch read the zero back
  iexists _; isplitr
  swap; · iexact HS
  ipureintro
  sl_unfold_run_names
  rw [read_writes_whole, readCov_whole, readAt_whole, readAt_whole, hf0, hf1]

/-- Case B: one more block product onto the running sum `s`. -/
theorem run0_B (c : Dev nD) (E : Set ℕ) (i : grid0.Coords)
    (arg3 : Memref sig .tc .vmem S1024x1024 .bf16) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1024x1024 .f32) (harg6 : arg6.IsWhole)
    (h1 : ¬first0 i) (h2 : ¬last0 i)
    (x0 x1 xo : Vec F S1024x1024 .bf16) (s : Vec F S1024x1024 .f32) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare s
        ∗ (iprop(owns (c : Thread nD τ) arg3 fullShare x0 ∗ owns (c : Thread nD τ) arg4 fullShare x1 ∗ owns (c : Thread nD τ) arg5 fullShare xo
            ∗ owns (c : Thread nD τ) arg6 fullShare (k0_pay2 s x0 x1)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%fo, %hfo, HO⟩, ⟨%fs, %hfs, HS⟩, Hk⟩
  -- a whole buffer's contents are determined by the vector they read back to
  obtain rfl := harg3.eq_unread hf0; obtain rfl := harg4.eq_unread hf1; obtain rfl := harg5.eq_unread hfo; obtain rfl := harg6.eq_unread hfs
  -- the body's loads and stores in order, each branch decided by the case's hypotheses
  sl_exec (disch := first | exact h1 | exact h2)
  sl_step
  iapply Hk
  -- the factor blocks were only loaded: they go back as they came
  isplitl [H0]
  · iexists _; isplitr; · ipureintro; exact hf0
    iexact H0
  isplitl [H1]
  · iexists _; isplitr; · ipureintro; exact hf1
    iexact H1
  -- so does the product buffer, which this case does not touch
  isplitl [HO]
  · iexists _; isplitr; · ipureintro; exact hfo
    iexact HO
  -- the scratch holds its one store's payload, whose three loads read `s`, `x0`, `x1` whole
  iexists _; isplitr
  swap; · iexact HS
  ipureintro
  rw [read_writes_whole, readAt_whole, readAt_whole, readAt_whole, hfs, hf0, hf1]

/-- Case C: the last block product, and the finished sum stored (narrowed) into the product's buffer, whatever it held. -/
theorem run0_C (c : Dev nD) (E : Set ℕ) (i : grid0.Coords)
    (arg3 : Memref sig .tc .vmem S1024x1024 .bf16) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1024x1024 .f32) (harg6 : arg6.IsWhole)
    (h1 : ¬first0 i) (h2 : last0 i)
    (x0 x1 : Vec F S1024x1024 .bf16) (s : Vec F S1024x1024 .f32) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare s
        ∗ (iprop(owns (c : Thread nD τ) arg3 fullShare x0 ∗ owns (c : Thread nD τ) arg4 fullShare x1
            ∗ owns (c : Thread nD τ) arg5 fullShare (k0_pay3 (k0_pay2 s x0 x1))
            ∗ owns (c : Thread nD τ) arg6 fullShare (k0_pay2 s x0 x1)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%dO, %fo, -, HO⟩, ⟨%fs, %hfs, HS⟩, Hk⟩
  -- a whole buffer's contents are determined by the vector they read back to
  obtain rfl := harg3.eq_unread hf0; obtain rfl := harg4.eq_unread hf1; obtain rfl := harg6.eq_unread hfs
  -- the body's loads and stores in order, each branch decided by the case's hypotheses
  sl_exec (disch := first | exact h1 | exact h2)
  sl_step
  iapply Hk
  -- the factor blocks were only loaded: they go back as they came
  isplitl [H0]
  · iexists _; isplitr; · ipureintro; exact hf0
    iexact H0
  isplitl [H1]
  · iexists _; isplitr; · ipureintro; exact hf1
    iexact H1
  -- the product buffer holds its one store's payload, computed from the scratch loaded back after the sum's store
  isplitl [HO]
  · iexists _; isplitr
    swap; · iexact HO
    ipureintro
    sl_unfold_run_names
    rw [read_writes_whole, readCov_whole, readAt_whole, readAt_whole, readAt_whole, hfs, hf0, hf1]
  -- the scratch holds the sum's payload, whose three loads read `s`, `x0`, `x1` whole
  iexists _; isplitr
  swap; · iexact HS
  ipureintro
  sl_unfold_run_names
  rw [read_writes_whole, readAt_whole, readAt_whole, readAt_whole, hfs, hf0, hf1]

end Cert.KernelIdeal.Hand

end
-- ==== Proof.KI.Oblig0.lean ====
/-
  The first product's region, point by point: what the body finds in each window's current buffer (a factor window its
  block, freshly fetched; the product window whatever it held), which case of the body the point is, and that the body
  carries the region invariant from one point to the next — the scratch at the running sum `acc0`.
-/
import proofs.«131328_j7430293422438_1_alg».proof.Proof.KI.Body0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The proof data's arrays are the region-entry contents. -/
theorem A_eq0 (c : Dev nD) (w : Fin cfg0.W) : (dat0 V c).A w = V c (Pipeline.arrRef spec0 w) := by
  dsimp only [dat0]

/-! ## The running sum, by the point's place in its run of eight -/

/-- Where the innermost coordinate is 0 the sum restarts from zero. -/
theorem acc0_first (c : Dev nD) (t : Fin cfg0.N) (h : t.val % 8 = 0) :
    acc0 V c t.val t.isLt = k0_pay2 k0_pay1 (lhs0 V c t) (rhs0 V c t) := by
  obtain ⟨n, hn⟩ := t
  cases n with
  | zero => rfl
  | succ n => exact (if_pos h).trans rfl

/-- Elsewhere one more block product is added to what the point before left. -/
theorem acc0_next (c : Dev nD) (t : Fin cfg0.N) (h : ¬t.val % 8 = 0) :
    acc0 V c t.val t.isLt
      = k0_pay2 (acc0 V c (t.val - 1) (Nat.lt_of_le_of_lt (Nat.sub_le _ _) t.isLt)) (lhs0 V c t) (rhs0 V c t) := by
  obtain ⟨n, hn⟩ := t
  cases n with
  | zero => exact absurd (Nat.zero_mod _) h
  | succ n => exact (if_neg h).trans rfl

/-! ## The invariant, by position -/

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn
      = iprop((owns (c : Thread nD τ) scM0 fullShare (acc0 V c n hn) ∗ others0 c) ∗ (∃ r, prngReg c r)) := rfl

theorem PhiS0_pos (c : Dev nD) (n : ℕ) (h : n ≤ cfg0.N) (hz : n ≠ 0) :
    PhiS0 V c n h
      = iprop((owns (c : Thread nD τ) scM0 fullShare (acc0 V c (n - 1) (by omega)) ∗ others0 c) ∗ (∃ r, prngReg c r)) := by
  cases n with
  | zero => exact absurd rfl hz
  | succ n => rfl

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-! ## What the body finds and leaves, window by window -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (acc0 V c t.val t.isLt) := by dsimp only [dat0]

/-- A factor window is fetched at every point, so its current buffer holds its block. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## The body obligation, at a generic point -/

/-- Each window's current staging memref at a point, with its wholeness. -/
abbrev m0_0 (t : Fin cfg0.N) : Memref sig .tc .vmem S1024x1024 .bf16 := win0_0.stage (cfg0.slots t 0)
abbrev h0_0 (t : Fin cfg0.N) : (m0_0 t).IsWhole := hstage0_0 ((cfg0.slots t 0).cast nbuf0_0)
abbrev m0_1 (t : Fin cfg0.N) : Memref sig .tc .vmem S1024x1024 .bf16 := win0_1.stage (cfg0.slots t 1)
abbrev h0_1 (t : Fin cfg0.N) : (m0_1 t).IsWhole := hstage0_1 ((cfg0.slots t 1).cast nbuf0_1)
abbrev m0_2 (t : Fin cfg0.N) : Memref sig .tc .vmem S1024x1024 .bf16 := win0_2.stage (cfg0.slots t 2)
abbrev h0_2 (t : Fin cfg0.N) : (m0_2 t).IsWhole := hstage0_2 ((cfg0.slots t 2).cast nbuf0_2)

/-- What the body is handed at a point: the invariant, what the core owes, and the three current buffers, -/
def bodyPre0 (c : Dev nD) (t : Fin cfg0.N) : sProp 𝕄 :=
  iprop((dat0 V c).Φ t.castSucc ∗ (dat0 V c).owesAt () t.castSucc
    ∗ (∃ d, owns (c : Thread nD τ) (m0_0 t) fullShare ((dat0 V c).before 0 t d))
    ∗ (∃ d, owns (c : Thread nD τ) (m0_1 t) fullShare ((dat0 V c).before 1 t d))
    ∗ (∃ d, owns (c : Thread nD τ) (m0_2 t) fullShare ((dat0 V c).before 2 t d)))

/-- and what it hands back. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

/-- A factor window is live everywhere: the body leaves its buffer at the block. -/
theorem leaves0_0 (c : Dev nD) (t : Fin cfg0.N) :
    (dat0 V c).leavesExact 0 t = owns (c : Thread nD τ) (m0_0 t) fullShare (lhs0 V c t) := by
  rw [show (dat0 V c).leavesExact 0 t = owns (c : Thread nD τ) (m0_0 t) fullShare ((dat0 V c).after 0 t) from by
    unfold Dat.leavesExact; rw [live0_0 t], after0_0]
theorem leaves0_1 (c : Dev nD) (t : Fin cfg0.N) :
    (dat0 V c).leavesExact 1 t = owns (c : Thread nD τ) (m0_1 t) fullShare (rhs0 V c t) := by
  rw [show (dat0 V c).leavesExact 1 t = owns (c : Thread nD τ) (m0_1 t) fullShare ((dat0 V c).after 1 t) from by
    unfold Dat.leavesExact; rw [live0_1 t], after0_1]
/-- The product window where the sum is complete: live, left at the narrowed sum. -/
theorem leaves0_2_last (c : Dev nD) (t : Fin cfg0.N) (h : last0 (grid0.coords t)) :
    (dat0 V c).leavesExact 2 t = owns (c : Thread nD τ) (m0_2 t) fullShare (k0_pay3 (acc0 V c t.val t.isLt)) := by
  rw [show (dat0 V c).leavesExact 2 t = owns (c : Thread nD τ) (m0_2 t) fullShare ((dat0 V c).after 2 t) from by
    unfold Dat.leavesExact; rw [live0_2 t h], after0_2]

/-- The body at any point. The factor buffers hold their blocks; the point's place in its run of eight says which
    case runs; the invariant lends the scratch (at anything before the first point, at the running sum afterwards) and
    takes it back one block product further; where the sum is incomplete the product buffer goes back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ, PhiS0_castSucc]
  rw [leaves0_0, leaves0_1]
  by_cases h0 : t.val % 8 = 0
  · have hf : first0 (grid0.coords t) := (first0_iff t).mpr h0
    have hl : ¬last0 (grid0.coords t) := fun h => by have := (last0_iff t).mp h; omega
    rw [Dat.leavesExact_idle (dat0 V c) 2 t (idle0_2 t hl) (noFlush0_2 t hl), acc0_first V c t h0]
    by_cases hz : t.val = 0
    · rw [PhiS0_zero V c _ _ hz, PhiA0_eq]
      iintro ⟨⟨⟨HS, Hr⟩, Hg⟩, Ho, ⟨%d0, H0⟩, ⟨%d1, H1⟩, ⟨%d2, H2⟩⟩
      iapply (run0_A c Set.univ (grid0.coords t) (m0_0 t) (h0_0 t) (m0_1 t) (h0_1 t) (m0_2 t) (h0_2 t) scM0 (Memref.isWhole_whole _)
        hf hl (lhs0 V c t) (rhs0 V c t) ((dat0 V c).before 2 t d2) _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists d2; iexact H2
    · rw [PhiS0_pos V c _ _ hz]
      iintro ⟨⟨⟨HS, Hr⟩, Hg⟩, Ho, ⟨%d0, H0⟩, ⟨%d1, H1⟩, ⟨%d2, H2⟩⟩
      iapply (run0_A c Set.univ (grid0.coords t) (m0_0 t) (h0_0 t) (m0_1 t) (h0_1 t) (m0_2 t) (h0_2 t) scM0 (Memref.isWhole_whole _)
        hf hl (lhs0 V c t) (rhs0 V c t) ((dat0 V c).before 2 t d2) _)
      isplitl [H0]; · iexact H0
      isplitl [H1]; · iexact H1
      isplitl [H2]; · iexact H2
      isplitl [HS]; · iexists _; iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists d2; iexact H2
  · have hf : ¬first0 (grid0.coords t) := fun h => h0 ((first0_iff t).mp h)
    have hz : t.val ≠ 0 := fun e => h0 (by rw [e])
    rw [PhiS0_pos V c _ _ hz, acc0_next V c t h0]
    by_cases h7 : t.val % 8 = 7
    · have hl : last0 (grid0.coords t) := (last0_iff t).mpr h7
      rw [leaves0_2_last V c t hl, acc0_next V c t h0]
      iintro ⟨⟨⟨HS, Hr⟩, Hg⟩, Ho, ⟨%d0, H0⟩, ⟨%d1, H1⟩, ⟨%d2, H2⟩⟩
      iapply (run0_C c Set.univ (grid0.coords t) (m0_0 t) (h0_0 t) (m0_1 t) (h0_1 t) (m0_2 t) (h0_2 t) scM0 (Memref.isWhole_whole _)
        hf hl (lhs0 V c t) (rhs0 V c t) (acc0 V c (t.val - 1) (Nat.lt_of_le_of_lt (Nat.sub_le _ _) t.isLt)) _)
      isplitl [H0]; · iexact H0
      isplitl [H1]; · iexact H1
      isplitl [H2]; · iexists _; iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · have hl : ¬last0 (grid0.coords t) := fun h => h7 ((last0_iff t).mp h)
      rw [Dat.leavesExact_idle (dat0 V c) 2 t (idle0_2 t hl) (noFlush0_2 t hl)]
      iintro ⟨⟨⟨HS, Hr⟩, Hg⟩, Ho, ⟨%d0, H0⟩, ⟨%d1, H1⟩, ⟨%d2, H2⟩⟩
      iapply (run0_B c Set.univ (grid0.coords t) (m0_0 t) (h0_0 t) (m0_1 t) (h0_1 t) (m0_2 t) (h0_2 t) scM0 (Memref.isWhole_whole _)
        hf hl (lhs0 V c t) (rhs0 V c t) ((dat0 V c).before 2 t d2) (acc0 V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists d2; iexact H2

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class invariant back: the running sum's name is forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 512 := N_0; omega), PhiA0_eq]
  iintro ⟨⟨HS, Hr⟩, Hg⟩
  isplitl [HS Hr]
  · isplitl [HS]
    · iexists _; iexact HS
    iexact Hr
  iexact Hg

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.KI.Body1.lean ====
/-
  The second product's kernel body run symbolically, once per way its two branches fall on the grid:
  (A) innermost coordinate 0 — the scratch is zeroed, then one block product is added;
  (B) innermost coordinate 1..6 — one block product is added to what the scratch held;
  (C) innermost coordinate 7 — the same, and the finished sum is stored into the product's block.
-/
import proofs.«131328_j7430293422438_1_alg».proof.Proof.KI.RegionData
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Loads and stores through the rectangle that is the whole block -/

/-- The offset vector `![0, 0]` is the constant zero. -/
private theorem hz2 : (![0, 0] : Fin S1024x1024.rank → ℕ) = fun _ => 0 := by
  funext a; fin_cases a <;> rfl

/-- The whole-shape rectangle holds every index, so a list of writes headed by a write through it covers the shape. -/
private theorem cover_whole {e : EltTy} (w : S1024x1024.Idx → Elt F e) (L : List (View.Piece (Elt F) S1024x1024 e)) (y : S1024x1024.Idx) :
    ∃ p ∈ (⟨Rect.unit (s := S1024x1024) ![0, 0] S1024x1024.size inb_S1024x1024_S1024x1024_0_0, w⟩ : View.Piece (Elt F) S1024x1024 e) :: L, y ∈ p.1.set :=
  ⟨⟨Rect.unit (s := S1024x1024) ![0, 0] S1024x1024.size inb_S1024x1024_S1024x1024_0_0, w⟩, List.mem_cons_self,
    View.mem_set_unit_zero (S := S1024x1024) hz2 inb_S1024x1024_S1024x1024_0_0 y⟩

/-- The last store, when it goes through the whole-shape rectangle, leaves its payload: whatever the buffer held,
    whatever was stored before, however the buffer is viewed. -/
private theorem read_writes_whole {e : EltTy} (v : View sig .tc .vmem S1024x1024 e) (f : v.ty.Contents (Elt F))
    (w : S1024x1024.Idx → Elt F e) (L : List (View.Piece (Elt F) S1024x1024 e)) :
    v.read (Elt F) (v.writes (Elt F) f
      ((⟨Rect.unit (s := S1024x1024) ![0, 0] S1024x1024.size inb_S1024x1024_S1024x1024_0_0, w⟩ : View.Piece (Elt F) S1024x1024 e) :: L)) = w := by
  rw [View.read_writes_eq_canon _ _ _ (cover_whole w L)]
  exact View.canon_cons_unit_zero (S := S1024x1024) hz2 inb_S1024x1024_S1024x1024_0_0 w L

/-- A load through the whole-shape rectangle reads the contents. -/
private theorem readAt_whole {e : EltTy} (v : View sig .tc .vmem S1024x1024 e) (f : v.ty.Contents (Elt F)) :
    v.readAt (Elt F) (Rect.unit (s := S1024x1024) ![0, 0] S1024x1024.size inb_S1024x1024_S1024x1024_0_0).toLoadRect f = v.read (Elt F) f := by
  rw [View.readAt_eq_ld]; exact View.ld_unit_zero (S := S1024x1024) hz2 inb_S1024x1024_S1024x1024_0_0 _

/-- A load through the whole-shape rectangle, after one store through it, reads that store's payload. -/
private theorem readCov_whole {e : EltTy} (v : View sig .tc .vmem S1024x1024 e) (w : S1024x1024.Idx → Elt F e) :
    v.readCov [(⟨Rect.unit (s := S1024x1024) ![0, 0] S1024x1024.size inb_S1024x1024_S1024x1024_0_0, w⟩ : View.Piece (Elt F) S1024x1024 e)]
      (Rect.unit (s := S1024x1024) ![0, 0] S1024x1024.size inb_S1024x1024_S1024x1024_0_0).toLoadRect = w :=
  View.readCov_unit_zero (S := S1024x1024) v hz2 inb_S1024x1024_S1024x1024_0_0 w

/-- Case A: the sum restarts. The factor blocks and the (idle) product buffer come back as they were; the scratch, at
    anything before, ends at zero plus the block product. -/
theorem run1_A (c : Dev nD) (E : Set ℕ) (i : grid1.Coords)
    (arg3 : Memref sig .tc .vmem S1024x1024 .bf16) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S1024x1024 .f32) (harg6 : arg6.IsWhole)
    (h1 : first1 i) (h2 : ¬last1 i)
    (x0 x1 : Vec F S1024x1024 .bf16) (xo : Vec F S1024x1024 .f32) (K : PUnit → sProp 𝕄) :
    iprop(owns (c : Thread nD τ) arg3 fullShare x0 ∗ owns (c : Thread nD τ) arg4 fullShare x1 ∗ owns (c : Thread nD τ) arg5 fullShare xo
        ∗ (∃ d, owns (c : Thread nD τ) arg6 fullShare d)
        ∗ (iprop(owns (c : Thread nD τ) arg3 fullShare x0 ∗ owns (c : Thread nD τ) arg4 fullShare x1 ∗ owns (c : Thread nD τ) arg5 fullShare xo
            ∗ owns (c : Thread nD τ) arg6 fullShare (k1_pay2 k1_pay1 x0 x1)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%fo, %hfo, HO⟩, ⟨%ds, %fs, -, HS⟩, Hk⟩
  -- a whole buffer's contents are determined by the vector they read back to
  obtain rfl := harg3.eq_unread hf0; obtain rfl := harg4.eq_unread hf1; obtain rfl := harg5.eq_unread hfo
  -- the body's loads and stores in order, each branch decided by the case's hypotheses
  sl_exec (disch := first | exact h1 | exact h2)
  sl_step
  iapply Hk
  -- the factor blocks were only loaded: they go back as they came
  isplitl [H0]
  · iexists _; isplitr; · ipureintro; exact hf0
    iexact H0
  isplitl [H1]
  · iexists _; isplitr; · ipureintro; exact hf1
    iexact H1
  -- so does the product's buffer, which this case leaves alone
  isplitl [HO]
  · iexists _; isplitr; · ipureintro; exact hfo
    iexact HO
  -- the scratch was stored twice, zero and then the sum; the later store covers it, and the sum's load of the
  -- scratch read the zero back
  iexists _; isplitr
  swap; · iexact HS
  ipureintro
  sl_unfold_run_names
  rw [read_writes_whole, readCov_whole, readAt_whole, readAt_whole, hf0, hf1]

/-- Case B: one more block product onto the running sum `s`. -/
theorem run1_B (c : Dev nD) (E : Set ℕ) (i : grid1.Coords)
    (arg3 : Memref sig .tc .vmem S1024x1024 .bf16) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S1024x1024 .f32) (harg6 : arg6.IsWhole)
    (h1 : ¬first1 i) (h2 : ¬last1 i)
    (x0 x1 : Vec F S1024x1024 .bf16) (xo : Vec F S1024x1024 .f32) (s : Vec F S1024x1024 .f32) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare s
        ∗ (iprop(owns (c : Thread nD τ) arg3 fullShare x0 ∗ owns (c : Thread nD τ) arg4 fullShare x1 ∗ owns (c : Thread nD τ) arg5 fullShare xo
            ∗ owns (c : Thread nD τ) arg6 fullShare (k1_pay2 s x0 x1)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%fo, %hfo, HO⟩, ⟨%fs, %hfs, HS⟩, Hk⟩
  -- a whole buffer's contents are determined by the vector they read back to
  obtain rfl := harg3.eq_unread hf0; obtain rfl := harg4.eq_unread hf1; obtain rfl := harg5.eq_unread hfo; obtain rfl := harg6.eq_unread hfs
  -- the body's loads and stores in order, each branch decided by the case's hypotheses
  sl_exec (disch := first | exact h1 | exact h2)
  sl_step
  iapply Hk
  -- the factor blocks were only loaded: they go back as they came
  isplitl [H0]
  · iexists _; isplitr; · ipureintro; exact hf0
    iexact H0
  isplitl [H1]
  · iexists _; isplitr; · ipureintro; exact hf1
    iexact H1
  -- so does the product's buffer, which this case leaves alone
  isplitl [HO]
  · iexists _; isplitr; · ipureintro; exact hfo
    iexact HO
  -- the scratch holds its one store's payload, whose three loads read `s`, `x0`, `x1` whole
  iexists _; isplitr
  swap; · iexact HS
  ipureintro
  rw [read_writes_whole, readAt_whole, readAt_whole, readAt_whole, hfs, hf0, hf1]

/-- Case C: the last block product, and the finished sum stored into the product's buffer, whatever it held. -/
theorem run1_C (c : Dev nD) (E : Set ℕ) (i : grid1.Coords)
    (arg3 : Memref sig .tc .vmem S1024x1024 .bf16) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S1024x1024 .f32) (harg6 : arg6.IsWhole)
    (h1 : ¬first1 i) (h2 : last1 i)
    (x0 x1 : Vec F S1024x1024 .bf16) (s : Vec F S1024x1024 .f32) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare s
        ∗ (iprop(owns (c : Thread nD τ) arg3 fullShare x0 ∗ owns (c : Thread nD τ) arg4 fullShare x1
            ∗ owns (c : Thread nD τ) arg5 fullShare (k1_pay2 s x0 x1)
            ∗ owns (c : Thread nD τ) arg6 fullShare (k1_pay2 s x0 x1)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%dO, %fo, -, HO⟩, ⟨%fs, %hfs, HS⟩, Hk⟩
  -- a whole buffer's contents are determined by the vector they read back to
  obtain rfl := harg3.eq_unread hf0; obtain rfl := harg4.eq_unread hf1; obtain rfl := harg6.eq_unread hfs
  -- the body's loads and stores in order, each branch decided by the case's hypotheses
  sl_exec (disch := first | exact h1 | exact h2)
  sl_step
  iapply Hk
  -- the factor blocks were only loaded: they go back as they came
  isplitl [H0]
  · iexists _; isplitr; · ipureintro; exact hf0
    iexact H0
  isplitl [H1]
  · iexists _; isplitr; · ipureintro; exact hf1
    iexact H1
  -- the product's buffer holds its one store's payload: the scratch loaded back after the sum's store, the sum itself
  isplitl [HO]
  · iexists _; isplitr
    swap; · iexact HO
    ipureintro
    sl_unfold_run_names
    rw [read_writes_whole, readCov_whole, readAt_whole, readAt_whole, readAt_whole, hfs, hf0, hf1]
  -- the scratch holds the sum's payload, whose three loads read `s`, `x0`, `x1` whole
  iexists _; isplitr
  swap; · iexact HS
  ipureintro
  sl_unfold_run_names
  rw [read_writes_whole, readAt_whole, readAt_whole, readAt_whole, hfs, hf0, hf1]

end Cert.KernelIdeal.Hand

end
-- ==== Proof.KI.Oblig1.lean ====
/-
  The second product's region, point by point: what the body finds in each window's current buffer (a factor window its
  block, freshly fetched; the product window whatever it held), which case of the body the point is, and that the body
  carries the region invariant from one point to the next — the scratch at the running sum `acc1`.
-/
import proofs.«131328_j7430293422438_1_alg».proof.Proof.KI.Body1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The proof data's arrays are the region-entry contents. -/
theorem A_eq1 (c : Dev nD) (w : Fin cfg1.W) : (dat1 V c).A w = V c (Pipeline.arrRef spec1 w) := by
  dsimp only [dat1]

/-! ## The running sum, by the point's place in its run of eight -/

/-- Where the innermost coordinate is 0 the sum restarts from zero. -/
theorem acc1_first (c : Dev nD) (t : Fin cfg1.N) (h : t.val % 8 = 0) :
    acc1 V c t.val t.isLt = k1_pay2 k1_pay1 (lhs1 V c t) (rhs1 V c t) := by
  obtain ⟨n, hn⟩ := t
  cases n with
  | zero => rfl
  | succ n => exact (if_pos h).trans rfl

/-- Elsewhere one more block product is added to what the point before left. -/
theorem acc1_next (c : Dev nD) (t : Fin cfg1.N) (h : ¬t.val % 8 = 0) :
    acc1 V c t.val t.isLt
      = k1_pay2 (acc1 V c (t.val - 1) (Nat.lt_of_le_of_lt (Nat.sub_le _ _) t.isLt)) (lhs1 V c t) (rhs1 V c t) := by
  obtain ⟨n, hn⟩ := t
  cases n with
  | zero => exact absurd (Nat.zero_mod _) h
  | succ n => exact (if_neg h).trans rfl

/-! ## The invariant, by position -/

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn
      = iprop(with1 c (owns (c : Thread nD τ) scM1 fullShare (acc1 V c n hn)) ∗ (∃ r, prngReg c r)) := rfl

theorem PhiS1_pos (c : Dev nD) (n : ℕ) (h : n ≤ cfg1.N) (hz : n ≠ 0) :
    PhiS1 V c n h
      = iprop(with1 c (owns (c : Thread nD τ) scM1 fullShare (acc1 V c (n - 1) (by omega))) ∗ (∃ r, prngReg c r)) := by
  cases n with
  | zero => exact absurd rfl hz
  | succ n => rfl

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-! ## What the body finds and leaves, window by window -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

/-- A factor window is fetched at every point, so its current buffer holds its block. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-! ## The buffers the region never touches ride along -/

/-- What is said of the scratch can be taken out from under the untouched buffers and something else put back. -/
theorem with1_lend (c : Dev nD) (X Y : sProp 𝕄) : with1 c X ⊢ iprop(X ∗ (Y -∗ with1 c Y)) := by
  unfold with1
  iintro ⟨R0, R1, R2, R3, R4, R5, R6, HX⟩
  isplitl [HX]; · iexact HX
  iintro HY
  isplitl [R0]; · iexact R0
  isplitl [R1]; · iexact R1
  isplitl [R2]; · iexact R2
  isplitl [R3]; · iexact R3
  isplitl [R4]; · iexact R4
  isplitl [R5]; · iexact R5
  isplitl [R6]; · iexact R6
  iexact HY

/-! ## The body obligation, at a generic point -/

/-- Each window's current staging memref at a point, with its wholeness. The product's block is f32 here. -/
abbrev m1_0 (t : Fin cfg1.N) : Memref sig .tc .vmem S1024x1024 .bf16 := win1_0.stage (cfg1.slots t 0)
abbrev h1_0 (t : Fin cfg1.N) : (m1_0 t).IsWhole := hstage1_0 ((cfg1.slots t 0).cast nbuf1_0)
abbrev m1_1 (t : Fin cfg1.N) : Memref sig .tc .vmem S1024x1024 .bf16 := win1_1.stage (cfg1.slots t 1)
abbrev h1_1 (t : Fin cfg1.N) : (m1_1 t).IsWhole := hstage1_1 ((cfg1.slots t 1).cast nbuf1_1)
abbrev m1_2 (t : Fin cfg1.N) : Memref sig .tc .vmem S1024x1024 .f32 := win1_2.stage (cfg1.slots t 2)
abbrev h1_2 (t : Fin cfg1.N) : (m1_2 t).IsWhole := hstage1_2 ((cfg1.slots t 2).cast nbuf1_2)

/-- What the body is handed at a point: the invariant, what the core owes, and the three current buffers, -/
def bodyPre1 (c : Dev nD) (t : Fin cfg1.N) : sProp 𝕄 :=
  iprop((dat1 V c).Φ t.castSucc ∗ (dat1 V c).owesAt () t.castSucc
    ∗ (∃ d, owns (c : Thread nD τ) (m1_0 t) fullShare ((dat1 V c).before 0 t d))
    ∗ (∃ d, owns (c : Thread nD τ) (m1_1 t) fullShare ((dat1 V c).before 1 t d))
    ∗ (∃ d, owns (c : Thread nD τ) (m1_2 t) fullShare ((dat1 V c).before 2 t d)))

/-- and what it hands back. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

/-- A factor window is live everywhere: the body leaves its buffer at the block. -/
theorem leaves1_0 (c : Dev nD) (t : Fin cfg1.N) :
    (dat1 V c).leavesExact 0 t = owns (c : Thread nD τ) (m1_0 t) fullShare (lhs1 V c t) := by
  rw [show (dat1 V c).leavesExact 0 t = owns (c : Thread nD τ) (m1_0 t) fullShare ((dat1 V c).after 0 t) from by
    unfold Dat.leavesExact; rw [live1_0 t], after1_0]
theorem leaves1_1 (c : Dev nD) (t : Fin cfg1.N) :
    (dat1 V c).leavesExact 1 t = owns (c : Thread nD τ) (m1_1 t) fullShare (rhs1 V c t) := by
  rw [show (dat1 V c).leavesExact 1 t = owns (c : Thread nD τ) (m1_1 t) fullShare ((dat1 V c).after 1 t) from by
    unfold Dat.leavesExact; rw [live1_1 t], after1_1]
/-- The product window where the sum is complete: live, left at the sum itself (the product is kept in f32). -/
theorem leaves1_2_last (c : Dev nD) (t : Fin cfg1.N) (h : last1 (grid1.coords t)) :
    (dat1 V c).leavesExact 2 t = owns (c : Thread nD τ) (m1_2 t) fullShare (acc1 V c t.val t.isLt) := by
  rw [show (dat1 V c).leavesExact 2 t = owns (c : Thread nD τ) (m1_2 t) fullShare ((dat1 V c).after 2 t) from by
    unfold Dat.leavesExact; rw [live1_2 t h], after1_2]

set_option maxHeartbeats 1600000 in
/-- The body at any point. The factor buffers hold their blocks; the point's place in its run of eight says which
    case runs; the invariant lends the scratch out from under the untouched buffers (at anything before the first point,
    at the running sum afterwards) and takes it back one block product further; where the sum is incomplete the product
    buffer goes back as found, where it is complete it receives the sum. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ, PhiS1_castSucc]
  rw [leaves1_0, leaves1_1]
  by_cases h0 : t.val % 8 = 0
  · have hf : first1 (grid1.coords t) := (first1_iff t).mpr h0
    have hl : ¬last1 (grid1.coords t) := fun h => by have := (last1_iff t).mp h; omega
    rw [Dat.leavesExact_idle (dat1 V c) 2 t (idle1_2 t hl) (noFlush1_2 t hl), acc1_first V c t h0]
    by_cases hz : t.val = 0
    · rw [PhiS1_zero V c _ _ hz, PhiA1_eq]
      iintro ⟨⟨HW, Hg⟩, Ho, ⟨%d0, H0⟩, ⟨%d1, H1⟩, ⟨%d2, H2⟩⟩
      icases (with1_lend c _ (owns (c : Thread nD τ) scM1 fullShare (k1_pay2 k1_pay1 (lhs1 V c t) (rhs1 V c t)))) $$ HW with ⟨HS, Hback⟩
      iapply (run1_A c Set.univ (grid1.coords t) (m1_0 t) (h1_0 t) (m1_1 t) (h1_1 t) (m1_2 t) (h1_2 t) scM1 (Memref.isWhole_whole _)
        hf hl (lhs1 V c t) (rhs1 V c t) ((dat1 V c).before 2 t d2) _)
      isplitl [H0]; · iexact H0
      isplitl [H1]; · iexact H1
      isplitl [H2]; · iexact H2
      isplitl [HS]; · iexact HS
      iintro ⟨H0, H1, H2, HS⟩
      isplitl [HS Hback Hg]
      · isplitl [HS Hback]
        · iapply Hback; iexact HS
        iexact Hg
      isplitl [Ho]; · iexact Ho
      isplitl [H0]; · iexact H0
      isplitl [H1]; · iexact H1
      iexists d2; iexact H2
    · rw [PhiS1_pos V c _ _ hz]
      iintro ⟨⟨HW, Hg⟩, Ho, ⟨%d0, H0⟩, ⟨%d1, H1⟩, ⟨%d2, H2⟩⟩
      icases (with1_lend c _ (owns (c : Thread nD τ) scM1 fullShare (k1_pay2 k1_pay1 (lhs1 V c t) (rhs1 V c t)))) $$ HW with ⟨HS, Hback⟩
      iapply (run1_A c Set.univ (grid1.coords t) (m1_0 t) (h1_0 t) (m1_1 t) (h1_1 t) (m1_2 t) (h1_2 t) scM1 (Memref.isWhole_whole _)
        hf hl (lhs1 V c t) (rhs1 V c t) ((dat1 V c).before 2 t d2) _)
      isplitl [H0]; · iexact H0
      isplitl [H1]; · iexact H1
      isplitl [H2]; · iexact H2
      isplitl [HS]; · iexists _; iexact HS
      iintro ⟨H0, H1, H2, HS⟩
      isplitl [HS Hback Hg]
      · isplitl [HS Hback]
        · iapply Hback; iexact HS
        iexact Hg
      isplitl [Ho]; · iexact Ho
      isplitl [H0]; · iexact H0
      isplitl [H1]; · iexact H1
      iexists d2; iexact H2
  · have hf : ¬first1 (grid1.coords t) := fun h => h0 ((first1_iff t).mp h)
    have hz : t.val ≠ 0 := fun e => h0 (by rw [e])
    rw [PhiS1_pos V c _ _ hz, acc1_next V c t h0]
    by_cases h7 : t.val % 8 = 7
    · have hl : last1 (grid1.coords t) := (last1_iff t).mpr h7
      rw [leaves1_2_last V c t hl, acc1_next V c t h0]
      iintro ⟨⟨HW, Hg⟩, Ho, ⟨%d0, H0⟩, ⟨%d1, H1⟩, ⟨%d2, H2⟩⟩
      icases (with1_lend c _ (owns (c : Thread nD τ) scM1 fullShare (k1_pay2 (acc1 V c (t.val - 1) (Nat.lt_of_le_of_lt (Nat.sub_le _ _) t.isLt)) (lhs1 V c t) (rhs1 V c t)))) $$ HW with ⟨HS, Hback⟩
      iapply (run1_C c Set.univ (grid1.coords t) (m1_0 t) (h1_0 t) (m1_1 t) (h1_1 t) (m1_2 t) (h1_2 t) scM1 (Memref.isWhole_whole _)
        hf hl (lhs1 V c t) (rhs1 V c t) (acc1 V c (t.val - 1) (Nat.lt_of_le_of_lt (Nat.sub_le _ _) t.isLt)) _)
      isplitl [H0]; · iexact H0
      isplitl [H1]; · iexact H1
      isplitl [H2]; · iexists _; iexact H2
      isplitl [HS]; · iexact HS
      iintro ⟨H0, H1, H2, HS⟩
      isplitl [HS Hback Hg]
      · isplitl [HS Hback]
        · iapply Hback; iexact HS
        iexact Hg
      isplitl [Ho]; · iexact Ho
      isplitl [H0]; · iexact H0
      isplitl [H1]; · iexact H1
      iexact H2
    · have hl : ¬last1 (grid1.coords t) := fun h => h7 ((last1_iff t).mp h)
      rw [Dat.leavesExact_idle (dat1 V c) 2 t (idle1_2 t hl) (noFlush1_2 t hl)]
      iintro ⟨⟨HW, Hg⟩, Ho, ⟨%d0, H0⟩, ⟨%d1, H1⟩, ⟨%d2, H2⟩⟩
      icases (with1_lend c _ (owns (c : Thread nD τ) scM1 fullShare (k1_pay2 (acc1 V c (t.val - 1) (Nat.lt_of_le_of_lt (Nat.sub_le _ _) t.isLt)) (lhs1 V c t) (rhs1 V c t)))) $$ HW with ⟨HS, Hback⟩
      iapply (run1_B c Set.univ (grid1.coords t) (m1_0 t) (h1_0 t) (m1_1 t) (h1_1 t) (m1_2 t) (h1_2 t) scM1 (Memref.isWhole_whole _)
        hf hl (lhs1 V c t) (rhs1 V c t) ((dat1 V c).before 2 t d2) (acc1 V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HS Hback Hg]
      · isplitl [HS Hback]
        · iapply Hback; iexact HS
        iexact Hg
      isplitl [Ho]; · iexact Ho
      isplitl [H0]; · iexact H0
      isplitl [H1]; · iexact H1
      iexists d2; iexact H2

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the running sum's name is forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨HW, Hg⟩
  icases (with1_lend c _ (iprop(∃ d, owns (c : Thread nD τ) scM1 fullShare d))) $$ HW with ⟨HS, Hback⟩
  isplitl [HS Hback]
  · iapply Hback; iexists _; iexact HS
  iexact Hg

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.KI.Launch.lean ====
/-
  The whole program as a run: three stretches of host operations, then the two products back to back. Each product is
  entered from "every unscoped buffer at the contents the item before left", its own arrays split off and put back at
  what its write-backs leave; the second product reads the first one's result array. Read off the last boundary:
  the arguments as launched, and the result array at the second product's folded write-backs.
-/
import proofs.«131328_j7430293422438_1_alg».proof.Proof.KI.Oblig0
import proofs.«131328_j7430293422438_1_alg».proof.Proof.KI.Oblig1
import proofs.«131328_j7430293422438_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents between the items -/

/-- Core `c`'s buffers after the first host stretch, and after the second (after the third: `B3`). -/
abbrev B1 (c : Dev nD) : Valuation τ sig (Elt F) := StableHlo.after hostOps0 (B0 m c)
abbrev B2 (c : Dev nD) : Valuation τ sig (Elt F) := StableHlo.after hostOps0_1 (B1 m c)

/-- A buffer none of the three host stretches writes reaches the first product as launched. -/
theorem B3_of (c : Dev nD) (r : Ref sig .tc) (h0 : r ∉ hostOps0_W) (h1 : r ∉ hostOps0_1_W) (h2 : r ∉ hostOps0_2_W) :
    B3 m c (Proc.devRef .tc r) = m ((c : Thread nD τ).loc r) :=
  (StableHlo.after_of_writes_sub hostOps0_2 _ hostOps0_2_writes h2).trans <|
    (StableHlo.after_of_writes_sub hostOps0_1 _ hostOps0_1_writes h1).trans <|
      (StableHlo.after_of_writes_sub hostOps0 _ hostOps0_writes h0).trans rfl

/-- At the first product's exit: its arrays at their folded write-backs, every other buffer as entered. -/
theorem B4_arr (c : Dev nD) (w : Fin cfg0.W) :
    B4 m c (Proc.devRef .tc (Pipeline.arrRef spec0 w)) = (dat0 (V3 m) c).arrAt w cfg0.N := by
  unfold B4; exact Pipeline.withArrays_arr spec0 launch0.win.arr_inj c _ _ w
theorem B4_of_ne (c : Dev nD) (b : Ref sig .tc) (hb : ∀ w, Pipeline.arrRef spec0 w ≠ b) :
    B4 m c (Proc.devRef .tc b) = B3 m c (Proc.devRef .tc b) := by
  unfold B4; exact Pipeline.withArrays_of_ne spec0 c _ _ b hb
/-- The same at the second product's exit. -/
theorem B5_arr (c : Dev nD) (w : Fin cfg1.W) :
    B5 m c (Proc.devRef .tc (Pipeline.arrRef spec1 w)) = (dat1 (V4 m) c).arrAt w cfg1.N := by
  unfold B5; exact Pipeline.withArrays_arr spec1 launch1.win.arr_inj c _ _ w
theorem B5_of_ne (c : Dev nD) (b : Ref sig .tc) (hb : ∀ w, Pipeline.arrRef spec1 w ≠ b) :
    B5 m c (Proc.devRef .tc b) = B4 m c (Proc.devRef .tc b) := by
  unfold B5; exact Pipeline.withArrays_of_ne spec1 c _ _ b hb
abbrev V5 (c : Dev nD) (b : Ref sig .tc) : Buf (Elt F) ((c : Thread nD τ).loc b) := B5 m c b

/-- A buffer that is no array of either product and that no host stretch writes ends as launched. -/
theorem B5_of (c : Dev nD) (r : Ref sig .tc) (hs1 : ∀ w, Pipeline.arrRef spec1 w ≠ r) (hs0 : ∀ w, Pipeline.arrRef spec0 w ≠ r)
    (h0 : r ∉ hostOps0_W) (h1 : r ∉ hostOps0_1_W) (h2 : r ∉ hostOps0_2_W) :
    B5 m c (Proc.devRef .tc r) = m ((c : Thread nD τ).loc r) :=
  (B5_of_ne m c r hs1).trans <| (B4_of_ne m c r hs0).trans <| B3_of m c r h0 h1 h2

/-- The result array is the second product's third window's array. -/
theorem B5_result (c : Dev nD) : B5 m c (Proc.devRef .tc main_v27) = (dat1 (V4 m) c).arrAt 2 cfg1.N :=
  B5_arr m c 2

theorem B5_main_arg0 (c : Dev nD) : B5 m c (Proc.devRef .tc main_arg0) = m ((c : Thread nD τ).loc main_arg0) :=
  B5_of m c main_arg0 (by decide) (by decide) (by decide) (by decide) (by decide)
theorem B5_main_arg1 (c : Dev nD) : B5 m c (Proc.devRef .tc main_arg1) = m ((c : Thread nD τ).loc main_arg1) :=
  B5_of m c main_arg1 (by decide) (by decide) (by decide) (by decide) (by decide)
theorem B5_main_arg2 (c : Dev nD) : B5 m c (Proc.devRef .tc main_arg2) = m ((c : Thread nD τ).loc main_arg2) :=
  B5_of m c main_arg2 (by decide) (by decide) (by decide) (by decide) (by decide)

/-! ## The proof data family and the thread state -/

/-- Each product's proof data at the contents it is entered at: the first at `B3`, the second at what the first left. -/
def pdats : (p : Fin 2) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V4 m) c

abbrev 𝒱₀ : Variants := Variants.none
/-- No core owes another anything. -/
abbrev L : GSem nD τ sig → Finset Unit := fun _ => ∅
abbrev lv : GSem nD τ sig → Unit → ℕ := fun _ _ => 0
/-- Beside the buffers every item carries the core's generator register at some state and its dues, at nothing. -/
abbrev R (c : Dev nD) : sProp 𝕄 := iprop((∃ r, prngReg c r) ∗ ∃ W, owes (c : Thread nD τ) (0 : CellTallies nD τ sig Unit) W)
/-- What a core holds between two items: every unscoped buffer whole at the boundary's contents, and `R`. -/
abbrev St (B : Dev nD → Valuation τ sig (Elt F)) (c : Dev nD) : sProp 𝕄 :=
  iprop(StableHlo.held (c : Thread nD τ) (Pipeline.ucRefs τ sig) (B c) ∗ R c)

/-- A host stretch as a segment, from the contents `B` to `StableHlo.after ops (B c)`. -/
abbrev hseg (ops : List (HloOp τ sig (Elt F))) (hsub : ops.Forall fun op => op.bufs ⊆ StableHlo.tcRefs τ sig)
    (hfresh : ops.Forall fun op => op.fresh = ∅) (B : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) B R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The two products as segments -/

set_option backward.isDefEq.respectTransparency.types false in
/-- The first product: entered at `B3`, left at `B4`. Its three arrays are split out of the unscoped buffers and put
    back at what the write-backs leave; the generator register goes into the class invariant, which is the region
    invariant before the first point (`hin0`), and comes back out of it after the last (`hout0`). -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre := St (B3 m)
  post := St (B4 m)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun w => A_eq0 (V3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (V3 m) c).Φ 0 from rfl]
    iintro ⟨Hp, -, Hr⟩
    iapply (hin0 (V3 m) c)
    unfold Pipeline.ΦA
    isplitl [Hr]; · iexact Hr
    iexact Hp
  hout c := by
    rw [Pipeline.ownSems0_none]
    refine (hout0 (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (fun w => (B4_arr m c w).symm)
      (fun b hb => B4_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second product: entered at `B4` (the first one's exit: nothing runs between them), left at `B5`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m) c).loose
  hwaits := Pipeline.hwaits_of_owed_zero _ _ _ _ L lv 1 fun _ _ => rfl
  pre := St (B4 m)
  post := St (B5 m)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun w => A_eq1 (V4 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V4 m) c).Φ 0 from rfl]
    iintro ⟨Hp, -, Hr⟩
    iapply (hin1 (V4 m) c)
    unfold Pipeline.ΦA
    isplitl [Hr]; · iexact Hr
    iexact Hp
  hout c := by
    rw [Pipeline.ownSems0_none]
    refine (hout1 (V4 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (V5 m c) ((pdats m 1 c).arrAt · cfg1.N) (fun w => (B5_arr m c w).symm)
      (fun b hb => B5_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The five items in order: the three host stretches, each from the contents the one before left, then the two products. -/
abbrev segs : List (Pipeline.Seg (pcfgs (F := F)) adm (pdats m) () defs₀ 𝒱₀ L lv) :=
  [ .host (hseg hostOps0 hostOps0_sub hostOps0_fresh (B0 m)),
    .host (hseg hostOps0_1 hostOps0_1_sub hostOps0_1_fresh (B1 m)),
    .host (hseg hostOps0_2 hostOps0_2_sub hostOps0_2_fresh (B2 m)),
    .region (reg0 m),
    .region (reg1 m) ]

/-- The program is the run of its five items: both are the chain of the items' fragments. -/
theorem main_run (c : Dev nD) : main (F := F) c = Pipeline.Seg.run (segs m) := by
  rw [main_chain c, Pipeline.Seg.run_eq_chain]; rfl

set_option backward.isDefEq.respectTransparency.types false in
/-- THE RUN. From any memory with zero counters every weakly fair execution of @main terminates, nothing faulting; the
    result array ends at what the second product's write-backs leave in it, and the three arguments as launched. -/
theorem run_result : θ_run defs (onTc (τ := τ) (main (F := F))) ⟨m, fun _ => 0, ρ⟩ (fun r => ∀ c : Dev nD,
      r.2.mem ((c.tc : Thread nD τ).loc main_v27) = (dat1 (V4 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := St (B0 m))
    (Tₙ := fun c => iprop(StableHlo.held (c : Thread nD τ) (Pipeline.ucRefs τ sig) (B5 m c) ∗ ∃ r, prngReg c r))
    (hch := ⟨fun _ => .rfl, fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m c b)
    (hfin := fun c s' => by
      iintro ⟨⟨Hh, -⟩, HSI⟩
      unfold StableHlo.held
      imodintro
      iapply (pointsTo_read_all (Pipeline.ucRefs τ sig) (fun b => (((c : Thread nD τ)).1, b)) (B5 m c) s')
      isplitl [Hh] <;> iassumption)
    (hQ := fun s h c =>
      ⟨(h c _ (mem_uc main_v27 (by decide))).trans (B5_result m c),
       (h c _ (mem_uc main_arg0 (by decide))).trans (B5_main_arg0 m c),
       (h c _ (mem_uc main_arg1 (by decide))).trans (B5_main_arg1 m c),
       (h c _ (mem_uc main_arg2 (by decide))).trans (B5_main_arg2 m c)⟩)

/-- The frame: the run with the result dropped. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_result m ρ)

end Cert.KernelIdeal.Hand

end
-- ==== Proof.Spec.lean ====
/-
  The mathematics of the certificate, with no program in sight: matrices over the extended reals as functions of a
  two-coordinate index, their product as a sum over the shared coordinate, and the one law the proof needs — a sum over
  8192 terms is the sum of its eight consecutive runs of 1024 (only commutativity and associativity of +, which hold on
  the extended reals with no finiteness assumption).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The shapes: the two square factors, the tall right factor and result of the second product, and a block. -/
abbrev Sq : Shape := ⟨2, ![8192, 8192]⟩
abbrev Tall : Shape := ⟨2, ![8192, 1024]⟩
abbrev Blk : Shape := ⟨2, ![1024, 1024]⟩

/-- The product of two 8192 × 8192 matrices. -/
def mmSq (a b : Sq.Idx → EReal) : Sq.Idx → EReal :=
  fun i => ∑ k : Fin 8192, a (ix2 (n0 := 8192) (n1 := 8192) (i 0) k) * b (ix2 (n0 := 8192) (n1 := 8192) k (i 1))

/-- The product of an 8192 × 8192 matrix with an 8192 × 1024 one. -/
def mmTall (z : Sq.Idx → EReal) (x : Tall.Idx → EReal) : Tall.Idx → EReal :=
  fun i => ∑ k : Fin 8192, z (ix2 (n0 := 8192) (n1 := 8192) (i 0) k) * x (ix2 (n0 := 8192) (n1 := 1024) k (i 1))

/-- The whole computation: (c2 · adj) · x. -/
def G (x : Tall.Idx → EReal) (c2 adj : Sq.Idx → EReal) : Tall.Idx → EReal := mmTall (mmSq c2 adj) x

/-- A sum over 8192 terms is the sum of its eight consecutive runs of 1024. -/
theorem sum_runs (f : Fin 8192 → EReal) :
    ∑ K : Fin 8192, f K = ∑ kb : Fin 8, ∑ kk : Fin 1024, f ⟨1024 * kb.val + kk.val, by omega⟩ := by
  rw [← Fintype.sum_prod_type']
  refine (Fintype.sum_equiv (finProdFinEquiv (m := 8) (n := 1024)) _ _ (fun x => ?_)).symm
  refine congrArg f (Fin.ext ?_)
  simp only [finProdFinEquiv_apply_val]
  omega

end Cert.Spec

end
-- ==== Proof.KI.Value0.lean ====
/-
  What the first product leaves in its result array, at the ideal values: block (i, j) of the array is written once, at
  the point (i, j, 7), with the running sum over all eight k — which is the full sum over the shared coordinate; the
  blocks tile the array, so the array is the matrix product of the two factor arrays as the region found them.
-/
import proofs.«131328_j7430293422438_1_alg».proof.Proof.KI.RegionData
import proofs.«131328_j7430293422438_1_alg».proof.Proof.Spec
import Idealize.ShloMosaic.Lib.Pipeline.Value
import Idealize.ShloMosaic.Lib.ValueLayout

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

local notation "𝕄" => MT nD τ sig Unit (Elt F) ℕ (UR sig nD τ) ℕ

/-! ## The payloads at an index -/

/-- The restart value is zero everywhere. -/
theorem k0_pay1_apply (p q : Fin 1024) : (k0_pay1 (F := Ideal)) (ix2 p q) = 0 := by
  unfold k0_pay1
  rw [shapeCast_self]
  show Ideal.ofBits .f32 0x00000000#32 = 0
  exact Ideal.ofBits_zero_f32

theorem lhs0_dot_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs0_dot_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs0_dot_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs0_dot_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- One step of the running sum at an index: what was there plus the block product's entry. -/
theorem k0_pay2_apply (s : Vec Ideal S1024x1024 .f32) (a b : Vec Ideal S1024x1024 .bf16) (p q : Fin 1024) :
    k0_pay2 s a b (ix2 p q) = s (ix2 p q) + ∑ kk : Fin 1024, a (ix2 p kk) * b (ix2 kk q) := by
  unfold k0_pay2
  simp only [shapeCast_self]
  rw [addf_apply]
  congr 1
  refine (Ideal.matmul_constant_zero_apply (φ₁ := .bf16) (φ₂ := .bf16) dot_S1024x1024_S1024x1024_S1024x1024_1_0_0_1_n_n none a b (ix2 p q)).trans ?_
  rw [← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun a => Fin.ext (by
    match a with
    | ⟨0, _⟩ => exact lhs0_dot_0 _ _
    | ⟨1, _⟩ => exact (lhs0_dot_1 _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun a => Fin.ext (by
    match a with
    | ⟨0, _⟩ => exact (rhs0_dot_0 _ _).trans hk
    | ⟨1, _⟩ => exact rhs0_dot_1 _ _)
  rw [el, er]

/-- The change of format on the way out is the identity on extended reals. -/
theorem k0_pay3_eq (v : Vec Ideal S1024x1024 .f32) : (k0_pay3 v : S1024x1024.Idx → EReal) = v := rfl

section
variable (V : (c : Dev nD) → (b : Ref sig .tc) → Buf (Elt Ideal) ((c : Thread nD τ).loc b))

/-- The two factor arrays as the region finds them, at their literal type. -/
abbrev facL0 (c : Dev nD) : S8192x8192.Idx → EReal := V c main_v24
abbrev facR0 (c : Dev nD) : S8192x8192.Idx → EReal := V c main_v23

/-! ## The running sum in closed form -/

/-- Where the innermost coordinate is 0 the sum restarts from zero. -/
theorem acc0_restart (c : Dev nD) (n : ℕ) (h : n < cfg0.N) (hn : n % 8 = 0) :
    acc0 V c n h = k0_pay2 k0_pay1 (lhs0 V c ⟨n, h⟩) (rhs0 V c ⟨n, h⟩) := by
  cases n with
  | zero => rfl
  | succ n => unfold acc0; rw [if_pos hn]

/-- Elsewhere it grows by one block product. -/
theorem acc0_grow (c : Dev nD) (n : ℕ) (h : n + 1 < cfg0.N) (hn : ¬(n + 1) % 8 = 0) :
    acc0 V c (n + 1) h = k0_pay2 (acc0 V c n (Nat.lt_of_succ_lt h)) (lhs0 V c ⟨n + 1, h⟩) (rhs0 V c ⟨n + 1, h⟩) := by
  rw [acc0]; rw [if_neg hn]

/-- The block product of the point at position `n`, at an entry (zero past the grid, where it is never read). -/
def prod0 (c : Dev nD) (n : ℕ) (p q : Fin 1024) : EReal :=
  if h : n < cfg0.N then ∑ kk : Fin 1024, lhs0 V c ⟨n, h⟩ (ix2 p kk) * rhs0 V c ⟨n, h⟩ (ix2 kk q) else 0

/-- After the point at offset `k` in a run of eight the scratch holds the sum of the run's first `k + 1` block products. -/
theorem acc0_run (c : Dev nD) (b : ℕ) (hb : b % 8 = 0) (p q : Fin 1024) :
    ∀ (k : ℕ) (hk : k < 8) (h : b + k < cfg0.N),
      acc0 V c (b + k) h (ix2 p q) = ∑ s ∈ Finset.range (k + 1), prod0 V c (b + s) p q
  | 0, _, h => by
    rw [Finset.sum_range_one]
    refine (congrFun (acc0_restart V c (b + 0) h hb) (ix2 p q)).trans ?_
    refine (k0_pay2_apply (k0_pay1 (F := Ideal)) (lhs0 V c ⟨b + 0, h⟩) (rhs0 V c ⟨b + 0, h⟩) p q).trans ?_
    rw [k0_pay1_apply, zero_add]
    unfold prod0
    rw [dif_pos h]
  | k + 1, hk, h => by
    rw [Finset.sum_range_succ _ (k + 1)]
    refine (congrFun (acc0_grow V c (b + k) h (by omega)) (ix2 p q)).trans ?_
    refine (k0_pay2_apply (acc0 V c (b + k) (Nat.lt_of_succ_lt h)) (lhs0 V c ⟨b + k + 1, h⟩) (rhs0 V c ⟨b + k + 1, h⟩) p q).trans ?_
    rw [acc0_run c b hb p q k (by omega) (Nat.lt_of_succ_lt h)]
    congr 1
    unfold prod0
    rw [dif_pos (show b + (k + 1) < cfg0.N from h)]
    rfl

/-! ## The factor blocks, read where the grid point says -/

/-- The printed index maps, decided over the grid: point `t` is `(i, j, k) = (t / 64, t / 8 % 8, t % 8)`; the left factor's
    block is `(i, k)`, the right factor's `(k, j)`, the product's `(i, j)`. -/
theorem idx_facts0 : ∀ t : Fin cfg0.N,
    win0_0.index t (0 : Fin 2) = t.val / 64 ∧ win0_0.index t (1 : Fin 2) = t.val % 8
    ∧ win0_1.index t (0 : Fin 2) = t.val % 8 ∧ win0_1.index t (1 : Fin 2) = t.val / 8 % 8
    ∧ win0_2.index t (0 : Fin 2) = t.val / 64 ∧ win0_2.index t (1 : Fin 2) = t.val / 8 % 8 :=
  (by decide +kernel : ∀ t : Fin grid0.N, _)

/-- An entry of the left factor's block is the entry of the left factor at block index × 1024 + the place inside the block. -/
theorem lhs0_apply (c : Dev nD) (t : Fin cfg0.N) (p kk : Fin 1024) (R K : Fin 8192)
    (hR : R.val = 1024 * (t.val / 64) + p.val) (hK : K.val = 1024 * (t.val % 8) + kk.val) :
    lhs0 V c t (ix2 p kk) = facL0 V c (ix2 R K) := by
  obtain ⟨e0, e1, -, -, -, -⟩ := idx_facts0 t
  show iblk0 V c 0 t (ix2 p kk) = _
  unfold iblk0
  rw [View.read_apply]
  show V c main_v24 _ = V c main_v24 _
  congr 1
  funext a
  apply Fin.ext
  match a with
  | ⟨0, _⟩ => show win0_0.index t (0 : Fin 2) * 1024 + 1 * p.val = R.val; rw [e0, hR]; omega
  | ⟨1, _⟩ => show win0_0.index t (1 : Fin 2) * 1024 + 1 * kk.val = K.val; rw [e1, hK]; omega

/-- The same for the right factor's block. -/
theorem rhs0_apply (c : Dev nD) (t : Fin cfg0.N) (kk q : Fin 1024) (K C : Fin 8192)
    (hK : K.val = 1024 * (t.val % 8) + kk.val) (hC : C.val = 1024 * (t.val / 8 % 8) + q.val) :
    rhs0 V c t (ix2 kk q) = facR0 V c (ix2 K C) := by
  obtain ⟨-, -, e0, e1, -, -⟩ := idx_facts0 t
  show iblk0 V c 1 t (ix2 kk q) = _
  unfold iblk0
  rw [View.read_apply]
  show V c main_v23 _ = V c main_v23 _
  congr 1
  funext a
  apply Fin.ext
  match a with
  | ⟨0, _⟩ => show win0_1.index t (0 : Fin 2) * 1024 + 1 * kk.val = K.val; rw [e0, hK]; omega
  | ⟨1, _⟩ => show win0_1.index t (1 : Fin 2) * 1024 + 1 * q.val = C.val; rw [e1, hC]; omega

end

section
variable (V : (c : Dev nD) → (b : Ref sig .tc) → Buf (Elt Ideal) ((c : Thread nD τ).loc b))

/-! ## What a completed run leaves: the block of the matrix product -/

theorem acc0_congr (c : Dev nD) (n n' : ℕ) (h : n < cfg0.N) (h' : n' < cfg0.N) (e : n = n') :
    acc0 V c n h = acc0 V c n' h' := by subst e; rfl

/-- At the last point of a run the scratch holds, at `(p, q)`, the full sum over the shared coordinate: the eight block
    products are the eight consecutive runs of 1024 of the sum over 8192. -/
theorem out0_apply (c : Dev nD) (t : Fin cfg0.N) (ht : t.val % 8 = 7) (p q : Fin 1024) (R C : Fin 8192)
    (hR : R.val = 1024 * (t.val / 64) + p.val) (hC : C.val = 1024 * (t.val / 8 % 8) + q.val) :
    acc0 V c t.val t.isLt (ix2 p q) = Cert.Spec.mmSq (V c main_v24) (V c main_v23) (ix2 R C) := by
  have hN : cfg0.N = 512 := rfl
  have htl := t.isLt
  have hb : (t.val - 7) % 8 = 0 := by omega
  have hlt : t.val - 7 + 7 < cfg0.N := by omega
  show _ = ∑ K : Fin 8192, facL0 V c (ix2 R K) * facR0 V c (ix2 K C)
  rw [Cert.Spec.sum_runs, acc0_congr V c t.val (t.val - 7 + 7) t.isLt hlt (by omega), acc0_run V c (t.val - 7) hb p q 7 (by omega) hlt]
  show ∑ s ∈ Finset.range 8, prod0 V c (t.val - 7 + s) p q = _
  rw [Finset.sum_range]
  refine Finset.sum_congr rfl fun kb _ => ?_
  have hkb := kb.isLt
  unfold prod0
  rw [dif_pos (show t.val - 7 + kb.val < cfg0.N by omega)]
  refine Finset.sum_congr rfl fun kk _ => ?_
  have hkk := kk.isLt
  exact congrArg₂ (· * ·)
    (lhs0_apply V c ⟨t.val - 7 + kb.val, by omega⟩ p kk R ⟨1024 * kb.val + kk.val, by omega⟩
      (by show R.val = 1024 * ((t.val - 7 + kb.val) / 64) + p.val; omega)
      (by show 1024 * kb.val + kk.val = 1024 * ((t.val - 7 + kb.val) % 8) + kk.val; omega))
    (rhs0_apply V c ⟨t.val - 7 + kb.val, by omega⟩ kk q ⟨1024 * kb.val + kk.val, by omega⟩ C
      (by show 1024 * kb.val + kk.val = 1024 * ((t.val - 7 + kb.val) % 8) + kk.val; omega)
      (by show C.val = 1024 * ((t.val - 7 + kb.val) / 8 % 8) + q.val; omega))

/-- What the point that completes a run writes back is its block of the matrix product. -/
theorem flushed0_eq (c : Dev nD) (t : Fin cfg0.N) (ht : t.val % 8 = 7) :
    (dat0 (F := Ideal) V c).flushed 2 t
      = ((cfg0.win 2).blk t).view.read (Elt Ideal) (Cert.Spec.mmSq (V c main_v24) (V c main_v23)) := by
  obtain ⟨-, -, -, -, e0, e1⟩ := idx_facts0 t
  show (cfg0.win 2).cut (grid0.coords t) ((dat0 (F := Ideal) V c).after 2 t) = _
  dsimp only [dat0]
  funext j
  obtain ⟨p, q, rfl⟩ : ∃ (p : Fin 1024) (q : Fin 1024), j = ix2 p q := ⟨j 0, j 1, eq_ix2 j⟩
  have hp := p.isLt
  have hq := q.isLt
  have htl : t.val < cfg0.N := t.isLt
  have hN : cfg0.N = 512 := rfl
  refine (out0_apply V c t ht p q ⟨1024 * (t.val / 64) + p.val, by omega⟩ ⟨1024 * (t.val / 8 % 8) + q.val, by omega⟩ rfl rfl).trans ?_
  rw [View.read_apply]
  show Cert.Spec.mmSq (V c main_v24) (V c main_v23) _ = Cert.Spec.mmSq (V c main_v24) (V c main_v23) _
  congr 1
  funext a
  apply Fin.ext
  match a with
  | ⟨0, _⟩ => show 1024 * (t.val / 64) + p.val = win0_2.index t (0 : Fin 2) * 1024 + 1 * p.val; rw [e0]; omega
  | ⟨1, _⟩ => show 1024 * (t.val / 8 % 8) + q.val = win0_2.index t (1 : Fin 2) * 1024 + 1 * q.val; rw [e1]; omega

/-! ## The blocks tile the array -/

/-- An index of the array is in point `t`'s block iff each coordinate is in the block's range on its axis. -/
theorem mem_blk0 (t : Fin cfg0.N) (i : S8192x8192.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v26).slice (win0_2.rect t)).set ↔ _
  rw [View.set_slice_whole, Rect.mem_set_unit]
  exact Iff.rfl

/-- Row `R`, column `C` of the array lies in the block written back at the last point of the run `(R / 1024, C / 1024)`. -/
theorem cover0 (i : S8192x8192.Idx) :
    ∃ t : Fin cfg0.N, (cfg0.win 2).flush t = true ∧ i ∈ ((cfg0.win 2).blk t).view.set := by
  have h0 : (i 0).val < 8192 := (i 0).isLt
  have h1 : (i 1).val < 8192 := (i 1).isLt
  have hN : cfg0.N = 512 := rfl
  obtain ⟨t, ht⟩ : ∃ t : Fin cfg0.N, t.val = 64 * ((i 0).val / 1024) + 8 * ((i 1).val / 1024) + 7 := ⟨⟨_, by omega⟩, rfl⟩
  obtain ⟨-, -, -, -, e0, e1⟩ := idx_facts0 t
  refine ⟨t, (flush0_2 t).mpr (by omega), ?_⟩
  rw [mem_blk0]
  intro a
  match a with
  | ⟨0, _⟩ => show win0_2.index t (0 : Fin 2) * 1024 ≤ (i 0).val ∧ (i 0).val < win0_2.index t (0 : Fin 2) * 1024 + 1024; rw [e0]; omega
  | ⟨1, _⟩ => show win0_2.index t (1 : Fin 2) * 1024 ≤ (i 1).val ∧ (i 1).val < win0_2.index t (1 : Fin 2) * 1024 + 1024; rw [e1]; omega

/-- The first product's result array after the region is the matrix product of its two factor arrays. -/
theorem final0 (c : Dev nD) :
    (dat0 (F := Ideal) V c).arrAt 2 cfg0.N = Cert.Spec.mmSq (V c main_v24) (V c main_v23) :=
  (dat0 (F := Ideal) V c).arrAt_eq_of_cover 2 (Cert.Spec.mmSq (V c main_v24) (V c main_v23))
    (fun t hf => flushed0_eq V c t ((flush0_2 t).mp hf)) cover0

end

end Cert.KernelIdeal.Hand

end
-- ==== Proof.KI.Value1.lean ====
/-
  What the second product leaves in its result array, at the ideal values: block (i, 0) of the array is written once, at
  the point (i, 0, 7), with the running sum over all eight k — which is the full sum over the shared coordinate; the
  blocks tile the array, so the array is the matrix product of the two factor arrays as the region found them.
-/
import proofs.«131328_j7430293422438_1_alg».proof.Proof.KI.RegionData
import proofs.«131328_j7430293422438_1_alg».proof.Proof.Spec
import Idealize.ShloMosaic.Lib.Pipeline.Value
import Idealize.ShloMosaic.Lib.ValueLayout

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

local notation "𝕄" => MT nD τ sig Unit (Elt F) ℕ (UR sig nD τ) ℕ

/-! ## The payloads at an index -/

/-- The restarted sum is zero everywhere. -/
theorem r1_pay1_apply (p q : Fin 1024) : k1_pay1 (F := Ideal) (ix2 p q) = 0 := by
  unfold k1_pay1
  rw [shapeCast_self]
  exact Ideal.ofBits_zero_f32

/-- The block product's dimension numbers: the left block's columns are contracted with the right block's rows. -/
abbrev r1_dot := dot_S1024x1024_S1024x1024_S1024x1024_1_0_0_1_n_n

/-- Its operand indices, axis by axis: the left operand is read at (row of the result, contraction index), the right
    at (contraction index, column of the result). -/
theorem r1_dot_lhs_0 (i : S1024x1024.Idx) (q : r1_dot.contr.Idx) : (r1_dot.lhsIdx i q 0).val = (i 0).val := by
  unfold DotDims.lhsIdx
  rw [dif_neg (show ¬(0 : Fin S1024x1024.rank) ∈ r1_dot.lhsBatch by decide), dif_pos (show (0 : Fin S1024x1024.rank) ∈ r1_dot.lhsNonContracting by decide)]
  rfl
theorem r1_dot_lhs_1 (i : S1024x1024.Idx) (q : r1_dot.contr.Idx) : (r1_dot.lhsIdx i q 1).val = (q ⟨0, by decide⟩).val :=
  r1_dot.lhsIdx_val_of_single rfl i q
theorem r1_dot_rhs_0 (i : S1024x1024.Idx) (q : r1_dot.contr.Idx) : (r1_dot.rhsIdx i q 0).val = (q ⟨0, by decide⟩).val :=
  r1_dot.rhsIdx_val_of_single rfl i q
theorem r1_dot_rhs_1 (i : S1024x1024.Idx) (q : r1_dot.contr.Idx) : (r1_dot.rhsIdx i q 1).val = (i 1).val := by
  unfold DotDims.rhsIdx
  rw [dif_neg (show ¬(1 : Fin S1024x1024.rank) ∈ r1_dot.rhsBatch by decide), dif_pos (show (1 : Fin S1024x1024.rank) ∈ r1_dot.rhsNonContracting by decide)]
  rfl

/-- One step of the running sum: the block product of the two factor blocks is added to what the scratch held. -/
theorem r1_pay2_apply (s : Vec Ideal S1024x1024 .f32) (a b : Vec Ideal S1024x1024 .bf16) (p q : Fin 1024) :
    k1_pay2 (F := Ideal) s a b (ix2 p q) = s (ix2 p q) + ∑ kk : Fin 1024, a (ix2 p kk) * b (ix2 kk q) := by
  unfold k1_pay2
  simp only [shapeCast_self]
  rw [addf_apply]
  congr 1
  simp only [matmul]
  rw [Ideal.matmul_constant_zero_apply, ← Equiv.sum_comp (contrEquiv1 r1_dot 1024 rfl rfl).symm]
  refine Finset.sum_congr rfl fun k _ => ?_
  have hk := contrEquiv1_symm_val r1_dot 1024 rfl rfl k
  have el : r1_dot.lhsIdx (ix2 p q) ((contrEquiv1 r1_dot 1024 rfl rfl).symm k) = ix2 p k := funext fun a => Fin.ext (by
    match a with
    | ⟨0, _⟩ => exact r1_dot_lhs_0 _ _
    | ⟨1, _⟩ => exact (r1_dot_lhs_1 _ _).trans hk)
  have er : r1_dot.rhsIdx (ix2 p q) ((contrEquiv1 r1_dot 1024 rfl rfl).symm k) = ix2 k q := funext fun a => Fin.ext (by
    match a with
    | ⟨0, _⟩ => exact (r1_dot_rhs_0 _ _).trans hk
    | ⟨1, _⟩ => exact r1_dot_rhs_1 _ _)
  rw [el, er]

/-! ## The running sum in closed form -/

section
variable (V : (c : Dev nD) → (b : Ref sig .tc) → Buf (Elt Ideal) ((c : Thread nD τ).loc b))

/-- The grid 8 × 1 × 8 has 64 points. -/
theorem r1_N : cfg1.N = 64 := rfl

/-- The product of the two factor blocks of point `n`, at row `p` and column `q` (zero past the grid). -/
def r1_blockProd (c : Dev nD) (p q : Fin 1024) (n : ℕ) : EReal :=
  if h : n < cfg1.N then ∑ kk : Fin 1024, lhs1 V c ⟨n, h⟩ (ix2 p kk) * rhs1 V c ⟨n, h⟩ (ix2 kk q) else 0

/-- The running sum unfolded: at the grid's first point and wherever a run starts it restarts from zero; elsewhere it
    continues from the point before. -/
theorem acc1_zero (c : Dev nD) (h : 0 < cfg1.N) :
    acc1 V c 0 h = k1_pay2 k1_pay1 (lhs1 V c ⟨0, h⟩) (rhs1 V c ⟨0, h⟩) := by
  rw [acc1]

theorem acc1_restart (c : Dev nD) (n : ℕ) (h : n + 1 < cfg1.N) (h0 : (n + 1) % 8 = 0) :
    acc1 V c (n + 1) h = k1_pay2 k1_pay1 (lhs1 V c ⟨n + 1, h⟩) (rhs1 V c ⟨n + 1, h⟩) := by
  rw [acc1, if_pos h0]

theorem acc1_grow (c : Dev nD) (n : ℕ) (h : n + 1 < cfg1.N) (h0 : ¬(n + 1) % 8 = 0) :
    acc1 V c (n + 1) h = k1_pay2 (acc1 V c n (Nat.lt_of_succ_lt h)) (lhs1 V c ⟨n + 1, h⟩) (rhs1 V c ⟨n + 1, h⟩) := by
  rw [acc1, if_neg h0]

/-- After point `n` the scratch holds the sum of the block products of the points of `n`'s run up to `n`. -/
theorem acc1_closed (c : Dev nD) (p q : Fin 1024) : ∀ (n : ℕ) (hn : n < cfg1.N),
    acc1 V c n hn (ix2 p q) = ∑ k' ∈ Finset.range (n % 8 + 1), r1_blockProd V c p q (n - n % 8 + k')
  | 0, h => by
    rw [acc1_zero, r1_pay2_apply, r1_pay1_apply, zero_add]
    show _ = ∑ k' ∈ Finset.range 1, r1_blockProd V c p q (0 + k')
    rw [Finset.sum_range_one, r1_blockProd, dif_pos h]
  | n + 1, h => by
    by_cases h0 : (n + 1) % 8 = 0
    · rw [acc1_restart V c n h h0, r1_pay2_apply, r1_pay1_apply, zero_add, h0]
      show _ = ∑ k' ∈ Finset.range 1, r1_blockProd V c p q (n + 1 - 0 + k')
      have e : n + 1 - 0 + 0 = n + 1 := rfl
      rw [Finset.sum_range_one, e, r1_blockProd, dif_pos h]
    · rw [acc1_grow V c n h h0, r1_pay2_apply, acc1_closed c p q n (Nat.lt_of_succ_lt h)]
      have e1 : (n + 1) % 8 = n % 8 + 1 := by omega
      have e2 : n + 1 - (n % 8 + 1) = n - n % 8 := by omega
      have e3 : n - n % 8 + (n % 8 + 1) = n + 1 := by omega
      rw [e1, e2, Finset.sum_range_succ _ (n % 8 + 1), e3]
      congr 1
      rw [r1_blockProd, dif_pos h]

end

/-! ## The blocks read where the grid puts them -/

section
variable (V : (c : Dev nD) → (b : Ref sig .tc) → Buf (Elt Ideal) ((c : Thread nD τ).loc b))

/-- The index maps over the grid: point `t` is (i, 0, k) = (t / 8, 0, t % 8); the left factor's block is (i, k), the right
    factor's (k, 0), the result's (i, 0). -/
theorem r1_idx_facts : ∀ t : Fin cfg1.N, win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = t.val / 8 ∧ win1_2.index t (1 : Fin 2) = 0 :=
  (by decide +kernel : ∀ t : Fin grid1.N, _)

/-- The left factor's block at point `t` = (i, 0, k) is rows 1024 i …, columns 1024 k … of the left factor array. -/
theorem lhs1_apply (c : Dev nD) (t : Fin cfg1.N) (i k : ℕ) (hi : t.val / 8 = i) (hk : t.val % 8 = k) (p kk : Fin 1024)
    (h1 : 1024 * i + p.val < 8192) (h2 : 1024 * k + kk.val < 8192) :
    lhs1 V c t (ix2 p kk) = V c main_v26 (ix2 (n0 := 8192) (n1 := 8192) ⟨1024 * i + p.val, h1⟩ ⟨1024 * k + kk.val, h2⟩) := by
  show V c main_v26 (((cfg1.win 0).blk t).view.emb (ix2 p kk)) = _
  refine congrArg (V c main_v26) (funext fun a => Fin.ext ?_)
  obtain ⟨e0, e1, -⟩ := r1_idx_facts t
  match a with
  | ⟨0, _⟩ => show win1_0.index t (0 : Fin 2) * 1024 + 1 * p.val = 1024 * i + p.val; omega
  | ⟨1, _⟩ => show win1_0.index t (1 : Fin 2) * 1024 + 1 * kk.val = 1024 * k + kk.val; omega

/-- The right factor's block at point `t` = (i, 0, k) is rows 1024 k … of the right factor array, all its columns. -/
theorem rhs1_apply (c : Dev nD) (t : Fin cfg1.N) (k : ℕ) (hk : t.val % 8 = k) (kk q : Fin 1024)
    (h1 : 1024 * k + kk.val < 8192) :
    rhs1 V c t (ix2 kk q) = V c main_v25 (ix2 (n0 := 8192) (n1 := 1024) ⟨1024 * k + kk.val, h1⟩ q) := by
  show V c main_v25 (((cfg1.win 1).blk t).view.emb (ix2 kk q)) = _
  refine congrArg (V c main_v25) (funext fun a => Fin.ext ?_)
  obtain ⟨-, -, e2, e3, -⟩ := r1_idx_facts t
  match a with
  | ⟨0, _⟩ => show win1_1.index t (0 : Fin 2) * 1024 + 1 * kk.val = 1024 * k + kk.val; omega
  | ⟨1, _⟩ => show win1_1.index t (1 : Fin 2) * 1024 + 1 * q.val = q.val; omega

end

/-! ## What a completing point writes back, and the array the blocks tile -/

section
variable (V : (c : Dev nD) → (b : Ref sig .tc) → Buf (Elt Ideal) ((c : Thread nD τ).loc b))

/-- The matrix product at row `r`, column `q`. -/
theorem r1_mmTall_apply (A : Cert.Spec.Sq.Idx → EReal) (B : Cert.Spec.Tall.Idx → EReal) (r : Fin 8192) (q : Fin 1024) :
    Cert.Spec.mmTall A B (ix2 r q) = ∑ K : Fin 8192, A (ix2 r K) * B (ix2 K q) := rfl

/-- At a point (i, 0, 7) the scratch holds the eight block products of the run, which are the eight runs of 1024 of the
    full sum over the shared coordinate: the block written back is block (i, 0) of the matrix product. -/
theorem flushed1_eq (c : Dev nD) (t : Fin cfg1.N) (ht : t.val % 8 = 7) :
    (dat1 V c).flushed 2 t
      = ((cfg1.win 2).blk t).view.read (Elt Ideal) (Cert.Spec.mmTall (V c main_v26) (V c main_v25)) := by
  have hN := r1_N
  have htl : t.val < 64 := hN ▸ t.isLt
  funext j
  obtain ⟨p, q, rfl⟩ : ∃ (p : Fin 1024) (q : Fin 1024), j = ix2 p q := ⟨j 0, j 1, eq_ix2 j⟩
  have hp : p.val < 1024 := p.isLt
  have hr : 1024 * (t.val / 8) + p.val < 8192 := by omega
  -- the result block's rectangle: rows 1024 i …, every column
  have he : ((cfg1.win 2).blk t).view.emb (ix2 p q) = ix2 (n0 := 8192) (n1 := 1024) ⟨1024 * (t.val / 8) + p.val, hr⟩ q := by
    obtain ⟨-, -, -, -, e4, e5⟩ := r1_idx_facts t
    refine funext fun a => Fin.ext ?_
    match a with
    | ⟨0, _⟩ => show win1_2.index t (0 : Fin 2) * 1024 + 1 * p.val = 1024 * (t.val / 8) + p.val; omega
    | ⟨1, _⟩ => show win1_2.index t (1 : Fin 2) * 1024 + 1 * q.val = q.val; omega
  show (dat1 V c).after 2 t (ix2 p q) = Cert.Spec.mmTall (V c main_v26) (V c main_v25) (((cfg1.win 2).blk t).view.emb (ix2 p q))
  rw [he]
  dsimp only [dat1]
  show acc1 V c t.val t.isLt (ix2 p q) = _
  have e8 : t.val % 8 + 1 = 8 := by omega
  rw [r1_mmTall_apply, Cert.Spec.sum_runs, acc1_closed, e8, Finset.sum_range]
  refine Finset.sum_congr rfl fun kb _ => ?_
  have hkb : kb.val < 8 := kb.isLt
  have hlt : t.val - t.val % 8 + kb.val < cfg1.N := Nat.lt_of_lt_of_eq (by omega) hN.symm
  rw [r1_blockProd, dif_pos hlt]
  refine Finset.sum_congr rfl fun kk _ => ?_
  have hkk : kk.val < 1024 := kk.isLt
  rw [lhs1_apply V c ⟨t.val - t.val % 8 + kb.val, hlt⟩ (t.val / 8) kb.val (by show (t.val - t.val % 8 + kb.val) / 8 = t.val / 8; omega)
        (by show (t.val - t.val % 8 + kb.val) % 8 = kb.val; omega) p kk hr (by omega),
      rhs1_apply V c ⟨t.val - t.val % 8 + kb.val, hlt⟩ kb.val (by show (t.val - t.val % 8 + kb.val) % 8 = kb.val; omega) kk q (by omega)]

/-- An index of the result array is in point `t`'s block iff each coordinate is in the block's range on its axis. -/
theorem mem_blk1_2 (t : Fin cfg1.N) (i : S8192x1024.Idx) :
    i ∈ ((cfg1.win 2).blk t).view.set ↔ ∀ a : Fin 2, win1_2.index t a * S1024x1024.size a ≤ (i a).val
      ∧ (i a).val < win1_2.index t a * S1024x1024.size a + S1024x1024.size a := by
  show i ∈ ((View.whole main_v27).slice (win1_2.rect t)).set ↔ _
  rw [View.set_slice_whole, Rect.mem_set_unit]
  exact Iff.rfl

/-- Row R, column C of the result array lies in the block written at the point (R / 1024, 0, 7). -/
theorem cover1 (i : S8192x1024.Idx) :
    ∃ t : Fin cfg1.N, (cfg1.win 2).flush t = true ∧ i ∈ ((cfg1.win 2).blk t).view.set := by
  have hi0 : (i 0).val < 8192 := (i 0).isLt
  have hi1 : (i 1).val < 1024 := (i 1).isLt
  have hN := r1_N
  have hlt : 8 * ((i 0).val / 1024) + 7 < cfg1.N := Nat.lt_of_lt_of_eq (by omega) hN.symm
  refine ⟨⟨8 * ((i 0).val / 1024) + 7, hlt⟩, (flush1_2 _).2 (by show (8 * ((i 0).val / 1024) + 7) % 8 = 7; omega), ?_⟩
  rw [mem_blk1_2]
  obtain ⟨-, -, -, -, e4, e5⟩ := r1_idx_facts ⟨8 * ((i 0).val / 1024) + 7, hlt⟩
  have e4' : win1_2.index ⟨8 * ((i 0).val / 1024) + 7, hlt⟩ (0 : Fin 2) = (i 0).val / 1024 := by
    rw [e4]; show (8 * ((i 0).val / 1024) + 7) / 8 = _; omega
  intro a
  match a with
  | ⟨0, _⟩ =>
    show win1_2.index _ (0 : Fin 2) * 1024 ≤ (i 0).val ∧ (i 0).val < win1_2.index _ (0 : Fin 2) * 1024 + 1024
    rw [e4']; omega
  | ⟨1, _⟩ =>
    show win1_2.index _ (1 : Fin 2) * 1024 ≤ (i 1).val ∧ (i 1).val < win1_2.index _ (1 : Fin 2) * 1024 + 1024
    rw [e5]; omega

/-- The second product's result array after the region is the matrix product of its two factor arrays. -/
theorem final1 (c : Dev nD) :
    (dat1 (F := Ideal) V c).arrAt 2 cfg1.N = Cert.Spec.mmTall (V c main_v26) (V c main_v25) :=
  (dat1 V c).arrAt_eq_of_cover 2 (Cert.Spec.mmTall (V c main_v26) (V c main_v25))
    (fun t ht => flushed1_eq V c t ((flush1_2 t).1 ht)) cover1

end

end Cert.KernelIdeal.Hand

end
-- ==== Proof.Bridge.lean ====
/-
  Both programs compute (c2 · adj(A)) · x on the extended reals. Here: what the first product finds in its factor arrays
  (the host stretch before it only transposes, adds, scales and narrows — and narrowing a float is the identity on the
  extended reals), the normalised adjacency `adj(A)` as ONE function shared with the reference (the two programs apply
  the same host operations to A, so it is never opened), and the reference's two host products as the same sums.
-/
import proofs.«131328_j7430293422438_1_alg».proof.Proof.KI.RegionData
import proofs.«131328_j7430293422438_1_alg».proof.Proof.Spec
import proofs.«131328_j7430293422438_1_alg».proof.Proof.Gen.ReferenceIdeal.Run
import proofs.«131328_j7430293422438_1_alg».proof.Proof.Gen.ReferenceIdeal.Read

set_option maxRecDepth 16384

noncomputable section

namespace Cert.Bridge

open Idealize.ShloMosaic Idealize.ShloMosaic.TcCoe Idealize.SL.Sem Idealize.ShloMosaic.StableHlo
open Cert.KernelIdeal Cert.KernelIdeal.Gen Cert.KernelIdeal.Hand

/-- The normalised adjacency as a function of the array A: the reference's stage of it, taken whole. -/
abbrev adj (x2 : Cert.Spec.Sq.Idx → EReal) : Cert.Spec.Sq.Idx → EReal := Cert.ReferenceIdeal.Read.val_main_v22 (F := Ideal) x2

variable (m : (ℓ : Loc nD τ sig) → Buf (Elt Ideal) ℓ)

/-- The first product's left factor array is the coefficient matrix (narrowed: the identity here). -/
theorem entry_v24 (c : Dev nD) :
    (V3 m c main_v24 : Cert.Spec.Sq.Idx → EReal) = m ((c.tc : Thread nD τ).loc main_arg1) := by
  show StableHlo.after hostOps0_2 (StableHlo.after hostOps0_1 (StableHlo.after hostOps0 (B0 m c))) (Proc.devRef .tc main_v24) = _
  after_results_simp <;> rfl

/-- The second product's right factor array is x (narrowed: the identity here). -/
theorem entry_v25 (c : Dev nD) :
    (V3 m c main_v25 : Cert.Spec.Tall.Idx → EReal) = m ((c.tc : Thread nD τ).loc main_arg0) := by
  show StableHlo.after hostOps0_2 (StableHlo.after hostOps0_1 (StableHlo.after hostOps0 (B0 m c))) (Proc.devRef .tc main_v25) = _
  after_results_simp <;> rfl

/-- The first product's right factor array is the normalised adjacency of A. -/
theorem entry_v23 (c : Dev nD) :
    (V3 m c main_v23 : Cert.Spec.Sq.Idx → EReal) = adj (m ((c.tc : Thread nD τ).loc main_arg2)) := by
  show StableHlo.after hostOps0_2 (StableHlo.after hostOps0_1 (StableHlo.after hostOps0 (B0 m c))) (Proc.devRef .tc main_v23) = _
  after_results_simp <;> rfl

/-- What the second product finds: its left factor array is the first product's result array after its write-backs, -/
theorem entry_v26 (c : Dev nD) : V4 m c main_v26 = (dat0 (V3 m) c).arrAt 2 cfg0.N := by
  show B4 m c (Proc.devRef .tc main_v26) = _
  unfold B4; exact Pipeline.withArrays_arr spec0 launch0.win.arr_inj c _ _ 2

/-- and its right factor array was not touched by the first product. -/
theorem entry_v25' (c : Dev nD) : V4 m c main_v25 = V3 m c main_v25 := by
  show B4 m c (Proc.devRef .tc main_v25) = _
  unfold B4; exact Pipeline.withArrays_of_ne spec0 c _ _ main_v25 (by decide)

/-- The reference's two host products, index by index, are the same sums over the shared coordinate. -/
theorem ref_eq (x0 : Cert.Spec.Tall.Idx → EReal) (x1 x2 : Cert.Spec.Sq.Idx → EReal) :
    Cert.ReferenceIdeal.Read.val_main_v24 (F := Ideal) x0 x1 x2 = Cert.Spec.G x0 x1 (adj x2) := by
  funext i
  rw [Cert.ReferenceIdeal.Read.val_main_v24_apply]
  unfold Cert.Spec.G Cert.Spec.mmTall
  refine Finset.sum_congr rfl fun k _ => ?_
  have e1 : Cert.ReferenceIdeal.Read.val_main_v23 (F := Ideal) x1 x2 (Cert.ReferenceIdeal.Read.lidx_main_v24 i k)
      = Cert.Spec.mmSq x1 (adj x2) (ValueIdx.ix2 (n0 := 8192) (n1 := 8192) (i 0) k) := by
    rw [Cert.ReferenceIdeal.Read.val_main_v23_apply]
    unfold Cert.Spec.mmSq
    refine Finset.sum_congr rfl fun k' _ => ?_
    have a1 : Cert.ReferenceIdeal.Read.lidx_main_v23 (Cert.ReferenceIdeal.Read.lidx_main_v24 i k) k'
        = ValueIdx.ix2 (n0 := 8192) (n1 := 8192) ((ValueIdx.ix2 (n0 := 8192) (n1 := 8192) (i 0) k) 0) k' :=
      funext fun a => Fin.ext (by match a with | ⟨0, _⟩ => rfl | ⟨1, _⟩ => rfl)
    have a2 : Cert.ReferenceIdeal.Read.ridx_main_v23 (Cert.ReferenceIdeal.Read.lidx_main_v24 i k) k'
        = ValueIdx.ix2 (n0 := 8192) (n1 := 8192) k' ((ValueIdx.ix2 (n0 := 8192) (n1 := 8192) (i 0) k) 1) :=
      funext fun a => Fin.ext (by match a with | ⟨0, _⟩ => rfl | ⟨1, _⟩ => rfl)
    rw [a1, a2]
  have e2 : Cert.ReferenceIdeal.Read.ridx_main_v24 i k = ValueIdx.ix2 (n0 := 8192) (n1 := 1024) k (i 1) :=
    funext fun a => Fin.ext (by match a with | ⟨0, _⟩ => rfl | ⟨1, _⟩ => rfl)
  rw [e1, e2]

end Cert.Bridge

end
-- ==== Proof.Final.lean ====
/-
  The idealized kernel's result array, after both products, is (c2 · adj(A)) · x of the launch contents: the second
  product multiplies what the first one left by x, and the first one multiplied c2 by adj(A).
-/
import proofs.«131328_j7430293422438_1_alg».proof.Proof.KI.Value0
import proofs.«131328_j7430293422438_1_alg».proof.Proof.KI.Value1
import proofs.«131328_j7430293422438_1_alg».proof.Proof.Bridge

set_option maxRecDepth 16384

noncomputable section

namespace Cert.Final

open Idealize.ShloMosaic Idealize.ShloMosaic.TcCoe Idealize.SL.Sem
open Cert.KernelIdeal Cert.KernelIdeal.Gen Cert.KernelIdeal.Hand

variable (m : (ℓ : Loc nD τ sig) → Buf (Elt Ideal) ℓ)

/-- What the second product's write-backs leave in the result array, as one function of the three arguments. -/
theorem kernel_value (c : Dev nD) :
    (dat1 (F := Ideal) (V4 m) c).arrAt 2 cfg1.N
      = Cert.Spec.G (m ((c.tc : Thread nD τ).loc main_arg0)) (m ((c.tc : Thread nD τ).loc main_arg1))
          (Cert.Bridge.adj (m ((c.tc : Thread nD τ).loc main_arg2))) := by
  rw [final1 (V4 m) c, Cert.Bridge.entry_v26 m c, final0 (V3 m) c, Cert.Bridge.entry_v25' m c]
  unfold Cert.Spec.G
  rw [← Cert.Bridge.entry_v25 m c, ← Cert.Bridge.entry_v24 m c, ← Cert.Bridge.entry_v23 m c]

end Cert.Final

end
-- ==== Proof.lean ====
/-
  The certificate. Kernel: two pipelined matrix products, z = c2 · adj(A) then y = z · x, each summed block by block
  over the shared coordinate in a scratch accumulator; reference: the same two products as whole host products, after
  the same host-side normalisation adj(A) of the adjacency. On the extended reals narrowing to bf16 is the identity and
  a sum may be taken in any grouping, so both results are (c2 · adj(A)) · x index by index; nothing about finiteness of
  the inputs is used. The three frames: each program runs to the end, faults nowhere, and leaves its arguments as
  launched (the kernel's by the run of its two regions, the reference's by its host run). No rewrite was applied when
  the kernel was idealized, so the preservation conjunct is trivial.
-/
import proofs.«131328_j7430293422438_1_alg».proof.Defs
import proofs.«131328_j7430293422438_1_alg».proof.Proof.Gen.Kernel
import proofs.«131328_j7430293422438_1_alg».proof.Proof.Gen.KernelIdeal
import proofs.«131328_j7430293422438_1_alg».proof.Proof.Gen.ReferenceIdeal
import proofs.«131328_j7430293422438_1_alg».proof.Proof.Gen.Pre_finite_inputs
import proofs.«131328_j7430293422438_1_alg».proof.Proof.KB.Launch
import proofs.«131328_j7430293422438_1_alg».proof.Proof.KI.Launch
import proofs.«131328_j7430293422438_1_alg».proof.Proof.Final
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame_all (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame_all (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with (c2 · adj(A)) · x in their result arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (Cert.Bridge.adj (m ((c.tc : Thread Cert.KernelIdeal.nD Cert.KernelIdeal.τ).loc Cert.KernelIdeal.main_arg2))), ?_, ?_⟩
  · exact (θ_run Cert.KernelIdeal.defs _ _).mono (fun r h c => ⟨(h c).1.trans (Cert.Final.kernel_value m c), (h c).2⟩)
      (Cert.KernelIdeal.Hand.run_result (F := Ideal) m ρ)
  · refine (θ_run Cert.ReferenceIdeal.defs _ _).mono (fun _ h c => ⟨?_, (h c).2⟩) (Cert.ReferenceIdeal.Value.run (F := Ideal) m' ρ')
    rw [(h c).1, Cert.ReferenceIdeal.Read.val_main_v24_eq, Cert.Bridge.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
